-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v10 : IVec S_ 1) (main_v15 : IVec S_ 1) : IVec S_ 1 :=
  let main_v16 : IVec S_ 1 := andi main_v10 main_v15
  main_v16

def fn {F : FTy → Type} [FloatOps F] (main_arg0 : FVec F S8192x512 .f32) (main_arg1 : IVec S8192x8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_c_0 : IVec S_ 32 := constantI S_ 32 0#32
  let main_v4 : IVec S8192x8192 32 := broadcastInDim S8192x8192 ![] bcast_S_S8192x8192 main_c_0
  let main_v5 : IVec S8192x8192 1 := cmpi .eq main_arg1 main_v4
  let main_c_1 : IVec S_ 32 := constantI S_ 32 1#32
  let main_v6 : IVec S8192x8192 32 := broadcastInDim S8192x8192 ![] bcast_S_S8192x8192 main_c_1
  let main_v7 : IVec S8192x8192 1 := cmpi .eq main_arg1 main_v6
  let main_v8 : IVec S8192x8192 1 := ori main_v5 main_v7
  let main_c_2 : IVec S_ 1 := constantI S_ 1 1#1
  let main_v9 : IVec S_ 1 := (fun x v => Host.reduce IntOp.andi x v reducesTo_S8192x8192_S_d0_1 h_S_) main_v8 main_c_2
  let main_v10 : IVec S_ 1 := andi main_v3 main_v9
  let main_v11 : FVec F S8192x8192 .f32 := sitofp .f32 main_arg1
  let main_cst_3 : FVec F S_ .f32 := constant S_ .f32 0x00000000#32
  let main_v12 : FVec F S8192 .f32 := (fun x v => Host.reduceAdd x v reducesTo_S8192x8192_S8192_d1 h_S_) main_v11 main_cst_3
  let main_cst_4 : FVec F S_ .f32 := constant S_ .f32 0x3F800000#32
  let main_v13 : FVec F S8192 .f32 := broadcastInDim S8192 ![] bcast_S_S8192 main_cst_4
  let main_v14 : IVec S8192 1 := cmpf .oge main_v12 main_v13
  let main_c_5 : IVec S_ 1 := constantI S_ 1 1#1
  let main_v15 : IVec S_ 1 := (fun x v => Host.reduce IntOp.andi x v reducesTo_S8192_S_d0 h_S_) main_v14 main_c_5
  fn_part1 (F := F) main_v10 main_v15
-- ==== Kernel.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024 : Shape := ⟨1, ![1024]⟩
abbrev S512 : Shape := ⟨1, ![512]⟩
abbrev S1x512 : Shape := ⟨2, ![1, 512]⟩

abbrev nBuf : Space → Nat
  | .hbm => 32
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x512, .bf16⟩
  | .hbm, ⟨8, _⟩ => ⟨S_, .bf16⟩
  | .hbm, ⟨9, _⟩ => ⟨S1024x128, .bf16⟩
  | .hbm, ⟨10, _⟩ => ⟨S8192x1, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S8192x512, .bf16⟩
  | .local _ .vmem, ⟨1, _⟩ => ⟨S1024x1, .f32⟩
  | .local _ .vmem, ⟨2, _⟩ => ⟨S1024x1, .f32⟩
  | .local _ .vmem, ⟨3, _⟩ => ⟨S1x1024, .f32⟩
  | .local _ .vmem, ⟨4, _⟩ => ⟨S1x1024, .f32⟩
  | .local _ .vmem, ⟨5, _⟩ => ⟨S1024x1024, .i32⟩
  | .local _ .vmem, ⟨6, _⟩ => ⟨S1024x1024, .i32⟩
  | .local _ .vmem, ⟨7, _⟩ => ⟨S1024x128, .bf16⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v3 : BitVec 32 := Scalar.muli arg0 c1024_i32
  v3
def k0_mult2 (i : grid0.Coords) : BitVec 32 :=
  let arg1 : BitVec 32 := BitVec.ofNat 32 (i 1).val
  let c1024_i32_1 : BitVec 32 := 1024#32
  let v5 : BitVec 32 := Scalar.muli arg1 c1024_i32_1
  v5
def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c1024_i32_1 : BitVec 32 := 1024#32
  let v5 : BitVec 32 := Scalar.muli arg1 c1024_i32_1
  let v6 : BitVec 32 := v5
  let v10 : Index := Scalar.indexCast v6
  let c0_2 : Index := 0#32
  ![v10.toNat, 0]
def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_25 : BitVec 32 := 0#32
  let v52 : BitVec 1 := Scalar.cmpi .ne v51 c0_i32_25
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x512_S8192_d1 : S8192x512.ReducesTo [1] S8192
  h_S_ : 0 < S_.numel
  shapeCasts_S8192_S8192x1 : S8192.ShapeCasts S8192x1
  shapeCasts_S8192_S1x8192 : S8192.ShapeCasts S1x8192
  bitsLt_bf16_f32 : FTy.bits .bf16 < FTy.bits .f32
  bcast_S_S1024x128 : S_.BroadcastsInDim S1024x128 (![] : Fin 0 → Fin S1024x128.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1024x512 : 0 < S1024x512.numel
  shapeCasts_S1024x512_S1024x512 : S1024x512.ShapeCasts S1024x512
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x1 : S1024x128.Slices ![0, 0] S1024x1
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  reducesTo_S8192x512_S512_d0 : S8192x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S1024x512_S512x1024_S1024x1024_1_0_0_1_n_n_wf : DotDims.WF S1024x512 S512x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x512.size a ≤ S8192x512.size a
  k0_off2_inb : ∀ i : grid0.Coords, ∀ a, (k0_off2 i) a + S1024x512.size a ≤ S8192x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .bf16 = 32 ∨ (Rect.block (s := S8192x512) S8192x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .i32 = 32 ∨ (Rect.block (s := S8192x8192) S1024x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v4) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S512x8192 : Shape := ⟨2, ![512, 8192]⟩
abbrev S8192x1 : Shape := ⟨2, ![8192, 1]⟩
abbrev S1x8192 : Shape := ⟨2, ![1, 8192]⟩
abbrev S512 : Shape := ⟨1, ![512]⟩
abbrev S1x512 : Shape := ⟨2, ![1, 512]⟩

abbrev nBuf : Space → Nat
  | .hbm => 51
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S512x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192x8192_S_d0_1 : S8192x8192.ReducesTo [0, 1] S_
  reducesTo_S8192x512_S512_d0 : S8192x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Spec.lean ====
/-
  The specification shared by both sides of the neighbourhood term, over the extended reals.

  For embeddings `e : [8192, 512]` and an adjacency matrix `a : [8192, 8192]` of 32-bit words:
  `sq i = Σ_k e[i,k]²`, `gram i j = Σ_k e[i,k]·e[j,k]`, `d2 i j = sq i + sq j − 2·gram i j`,
  the distance `dist i j = √(max (d2 i j) ε)` (the reference clips `d2` at zero first: `distClip`; the two agree
  because `0 ≤ ε`), the adjacency entry as a real `adjf i j`, the row degree `deg i = Σ_j adjf i j`.
  The kernel's row value is `(Σ_j [a[i,j] ≠ 0]·dist i j) / max (deg i) 1` and its neighbourhood term the sum of the
  row values (`nbrK`); the reference's is `Σ_i Σ_j distClip i j · adjf i j / deg i` (`nbrR`). For a 0/1 matrix whose
  rows all have degree at least one the two are equal: the mask is the product with `adjf`, `max (deg i) 1 = deg i`,
  and the division by the positive real `deg i` distributes over the sum of the non-negative terms.
-/
import Idealize.ShloMosaic.PureOps.Ideal
import Idealize.ShloMosaic.PureOps.Ideal.Laws
import Idealize.ShloMosaic.Lib.ValueIdx
import Idealize.ShloMosaic.Lib.IdealHost

noncomputable section

namespace Cert.GraphLoss

open Idealize.ShloMosaic Idealize.ShloMosaic.ValueIdx
open scoped BigOperators

/-- The embeddings' shape, the adjacency matrix's shape, a scalar's shape. -/
abbrev SE : Shape := ⟨2, ![8192, 512]⟩
abbrev SA : Shape := ⟨2, ![8192, 8192]⟩
abbrev S0 : Shape := ⟨0, ![]⟩

/-- The squared norm of row `i`. -/
def sq (e : SE.Idx → EReal) (i : Fin 8192) : EReal := ∑ k : Fin 512, e (ix2 i k) * e (ix2 i k)

/-- The inner product of rows `i` and `j`. -/
def gram (e : SE.Idx → EReal) (i j : Fin 8192) : EReal := ∑ k : Fin 512, e (ix2 i k) * e (ix2 j k)

/-- The literal 2 and the literal ε (the single-precision value nearest 1e-12), as both programs print them. -/
def two : EReal := Ideal.ofBits .f32 0x40000000#32
def eps : EReal := Ideal.ofBits .f32 0x2B8CBCCC#32

/-- The squared distance by the Gram identity. -/
def d2 (e : SE.Idx → EReal) (i j : Fin 8192) : EReal := sq e i + sq e j - two * gram e i j

/-- The kernel's distance: the square root of the squared distance floored at ε. -/
def dist (e : SE.Idx → EReal) (i j : Fin 8192) : EReal := Ideal.sqrt (max (d2 e i j) eps)

/-- The reference's distance: the squared distance clipped at zero, then floored at ε. -/
def distClip (e : SE.Idx → EReal) (i j : Fin 8192) : EReal := Ideal.sqrt (max (max 0 (d2 e i j)) eps)

/-- An adjacency entry as a real number (the signed integer, exactly). -/
def adjf (a : SA.Idx → BitVec 32) (i j : Fin 8192) : EReal := (((a (ix2 i j)).toInt : ℝ) : EReal)

/-- The degree of row `i`: the sum of its adjacency entries. -/
def deg (a : SA.Idx → BitVec 32) (i : Fin 8192) : EReal := ∑ j : Fin 8192, adjf a i j

/-- The distance kept where the adjacency entry is not zero, zero elsewhere. -/
def masked (e : SE.Idx → EReal) (a : SA.Idx → BitVec 32) (i j : Fin 8192) : EReal :=
  if a (ix2 i j) ≠ 0#32 then dist e i j else 0

/-- The sum of row `i`'s masked distances. -/
def num (e : SE.Idx → EReal) (a : SA.Idx → BitVec 32) (i : Fin 8192) : EReal := ∑ j : Fin 8192, masked e a i j

/-- The kernel's value for row `i`: the masked sum over the degree floored at one. -/
def rowVal (e : SE.Idx → EReal) (a : SA.Idx → BitVec 32) (i : Fin 8192) : EReal :=
  Ideal.div (num e a i) (max (deg a i) 1)

/-- The kernel's neighbourhood term (before the sign): the sum of the row values. -/
def nbrK (e : SE.Idx → EReal) (a : SA.Idx → BitVec 32) : EReal := ∑ i : Fin 8192, rowVal e a i

/-- The reference's neighbourhood term (before the sign): every weighted distance over its row's degree, summed. -/
def nbrR (e : SE.Idx → EReal) (a : SA.Idx → BitVec 32) : EReal :=
  ∑ i : Fin 8192, ∑ j : Fin 8192, Ideal.div (distClip e i j * adjf a i j) (deg a i)

/-- The loss from a neighbourhood term `x` and a compactness term `t`: `−x + 0.01·t` (0.01 as both programs print it). -/
def lossOf (x t : EReal) : S0.Idx → EReal := fun _ => -x + Ideal.ofBits .f32 0x3C23D70A#32 * t

end Cert.GraphLoss

end
-- ==== Proof.Algebra.lean ====
/-
  The kernel's neighbourhood term equals the reference's, for a 0/1 adjacency matrix whose rows all have
  degree at least one; and a sum over 8192 consecutive naturals read as eight blocks of 1024.

  Row by row.  An adjacency entry that is the word 0 or the word 1 is the real 0 or 1, so keeping the distance
  where the entry is not zero is multiplying the distance by the entry.  The degree is a finite sum of real
  numbers, hence itself a real number `n`, and `1 ≤ n`; so flooring it at one changes nothing and dividing by
  it is multiplying by the real `1 / n ≥ 0`.  The two distances agree because flooring at `ε ≥ 0` absorbs a
  previous clip at zero.  Last, the factor `1 / n` goes inside the sum: in the extended reals multiplication
  distributes over a sum of terms that are not negative, and every term here is a square root (not negative)
  times 0 or 1.  Nothing is asked of the embeddings: an infinite or undefined distance is carried along as
  it is on both sides.
-/
import proofs.«427371_j75651553951784_3_alg».proof.Proof.Spec
import Mathlib.Data.EReal.Basic
import Mathlib.Data.EReal.Operations
import Mathlib.Data.Fintype.BigOperators
import Mathlib.Algebra.BigOperators.Group.Finset.Basic
import Mathlib.Analysis.Real.Sqrt

noncomputable section

namespace Cert.GraphLoss

open Idealize.ShloMosaic Idealize.ShloMosaic.ValueIdx
open scoped BigOperators

/-! ### The extended reals: sums of reals, and a non-negative factor through a non-negative sum -/

/-- A finite sum of real numbers, taken in the extended reals, is the real sum. -/
theorem sum_coe_real {ι : Type*} (s : Finset ι) (r : ι → ℝ) :
    ∑ j ∈ s, ((r j : ℝ) : EReal) = ((∑ j ∈ s, r j : ℝ) : EReal) := by
  classical
  induction s using Finset.induction_on with
  | empty => simp
  | insert x s hx ih => rw [Finset.sum_insert hx, Finset.sum_insert hx, ih, EReal.coe_add]

/-- A factor goes inside a finite sum whose terms are all non-negative. -/
theorem sum_mul_of_nonneg {ι : Type*} (s : Finset ι) (t : ι → EReal) (c : EReal)
    (ht : ∀ j ∈ s, 0 ≤ t j) : (∑ j ∈ s, t j) * c = ∑ j ∈ s, t j * c := by
  classical
  induction s using Finset.induction_on with
  | empty => simp
  | insert x s hx ih =>
    have hx0 : 0 ≤ t x := ht x (Finset.mem_insert_self x s)
    have hs0 : ∀ j ∈ s, 0 ≤ t j := fun j hj => ht j (Finset.mem_insert_of_mem hj)
    rw [Finset.sum_insert hx, Finset.sum_insert hx,
      EReal.right_distrib_of_nonneg hx0 (Finset.sum_nonneg hs0), ih hs0]

/-! ### The floor ε and the two distances -/

/-- The floor ε is a positive single-precision number, so not negative. -/
theorem eps_nonneg : (0 : EReal) ≤ eps := by
  unfold eps
  simp [Ideal.ofBits, Ideal.ieee, -EReal.coe_mul]

/-- Flooring at ε absorbs a previous clip at zero: the two distances are the same. -/
theorem dist_eq_distClip (e : SE.Idx → EReal) (i j : Fin 8192) : distClip e i j = dist e i j := by
  unfold distClip dist
  rw [max_assoc, max_eq_right (le_trans eps_nonneg (le_max_right _ _))]

/-- The square root of an extended real that is not negative is not negative. -/
theorem sqrt_nonneg_of_nonneg {x : EReal} (hx : 0 ≤ x) : 0 ≤ Ideal.sqrt x := by
  induction x using EReal.rec with
  | bot => exact absurd hx (by simp)
  | coe r =>
    have hr : 0 ≤ r := EReal.coe_nonneg.mp hx
    rw [Ideal.sqrt_coe, if_neg (not_lt.mpr hr)]
    exact EReal.coe_nonneg.mpr (Real.sqrt_nonneg r)
  | top => exact le_top

/-- A distance is not negative. -/
theorem dist_nonneg (e : SE.Idx → EReal) (i j : Fin 8192) : 0 ≤ dist e i j :=
  sqrt_nonneg_of_nonneg (le_trans eps_nonneg (le_max_right _ _))

/-! ### A 0/1 adjacency matrix -/

/-- An entry that is the word 0 or the word 1 is the real 0 or the real 1. -/
theorem adjf_zero_or_one (a : SA.Idx → BitVec 32) (i j : Fin 8192)
    (h : a (ix2 i j) = 0#32 ∨ a (ix2 i j) = 1#32) :
    (a (ix2 i j) = 0#32 ∧ adjf a i j = 0) ∨ (a (ix2 i j) ≠ 0#32 ∧ adjf a i j = 1) := by
  rcases h with h | h
  · left; refine ⟨h, ?_⟩; simp [adjf, h]
  · right; refine ⟨by rw [h]; decide, ?_⟩
    have : (1#32 : BitVec 32).toInt = 1 := by decide
    simp [adjf, h, this]

/-- Keeping the distance where the entry is not zero is multiplying it by the entry. -/
theorem masked_eq_mul (e : SE.Idx → EReal) (a : SA.Idx → BitVec 32) (i j : Fin 8192)
    (h : a (ix2 i j) = 0#32 ∨ a (ix2 i j) = 1#32) :
    masked e a i j = dist e i j * adjf a i j := by
  unfold masked
  rcases adjf_zero_or_one a i j h with ⟨h0, hf⟩ | ⟨h1, hf⟩
  · rw [if_neg (not_not.mpr h0), hf, mul_zero]
  · rw [if_pos h1, hf, mul_one]

/-- A weighted distance is not negative. -/
theorem dist_mul_adjf_nonneg (e : SE.Idx → EReal) (a : SA.Idx → BitVec 32) (i j : Fin 8192)
    (h : a (ix2 i j) = 0#32 ∨ a (ix2 i j) = 1#32) : 0 ≤ dist e i j * adjf a i j := by
  rcases adjf_zero_or_one a i j h with ⟨_, hf⟩ | ⟨_, hf⟩
  · rw [hf, mul_zero]
  · rw [hf, mul_one]; exact dist_nonneg e i j

/-- The degree is a real number: the sum of the entries read as integers. -/
theorem deg_eq_coe (a : SA.Idx → BitVec 32) (i : Fin 8192) :
    deg a i = ((∑ j : Fin 8192, ((a (ix2 i j)).toInt : ℝ) : ℝ) : EReal) := by
  unfold deg adjf
  exact sum_coe_real Finset.univ _

/-! ### One row, then all rows -/

/-- Row `i`: the masked sum over the floored degree is the sum of the weighted distances over the degree. -/
theorem row_eq (e : SE.Idx → EReal) (a : SA.Idx → BitVec 32) (i : Fin 8192)
    (h01 : ∀ j : Fin 8192, a (ix2 i j) = 0#32 ∨ a (ix2 i j) = 1#32)
    (hdeg : (1 : EReal) ≤ deg a i) :
    rowVal e a i = ∑ j : Fin 8192, Ideal.div (distClip e i j * adjf a i j) (deg a i) := by
  have hn1 : (1 : ℝ) ≤ ∑ j : Fin 8192, ((a (ix2 i j)).toInt : ℝ) := by
    rw [deg_eq_coe] at hdeg; exact_mod_cast hdeg
  have hn0 : (∑ j : Fin 8192, ((a (ix2 i j)).toInt : ℝ)) ≠ 0 := by
    intro h0; rw [h0] at hn1; exact absurd hn1 (by norm_num)
  unfold rowVal num
  rw [max_eq_left hdeg, deg_eq_coe, Ideal.div_coe hn0]
  rw [Finset.sum_congr rfl (fun j _ => masked_eq_mul e a i j (h01 j))]
  rw [sum_mul_of_nonneg _ _ _ (fun j _ => dist_mul_adjf_nonneg e a i j (h01 j))]
  refine Finset.sum_congr rfl (fun j _ => ?_)
  rw [Ideal.div_coe hn0, dist_eq_distClip]

/-- The kernel's neighbourhood term is the reference's. -/
theorem nbr_eq (e : SE.Idx → EReal) (a : SA.Idx → BitVec 32)
    (h01 : ∀ i j : Fin 8192, a (ix2 i j) = 0#32 ∨ a (ix2 i j) = 1#32)
    (hdeg : ∀ i : Fin 8192, (1 : EReal) ≤ deg a i) :
    nbrK e a = nbrR e a := by
  unfold nbrK nbrR
  exact Finset.sum_congr rfl (fun i _ => row_eq e a i (h01 i) (hdeg i))

/-! ### 8192 consecutive naturals as eight blocks of 1024 -/

/-- `m` consecutive blocks of `n` naturals are the first `n * m` naturals. -/
theorem sum_range_mul_blocks {M : Type*} [AddCommMonoid M] (f : ℕ → M) (n m : ℕ) :
    ∑ J ∈ Finset.range m, ∑ q ∈ Finset.range n, f (n * J + q) = ∑ j ∈ Finset.range (n * m), f j := by
  induction m with
  | zero => simp
  | succ m ih => rw [Finset.sum_range_succ, ih, Nat.mul_succ, Finset.sum_range_add]

theorem sum_range_blocks {M : Type*} [AddCommMonoid M] (f : ℕ → M) :
    ∑ J ∈ Finset.range 8, ∑ q : Fin 1024, f (1024 * J + q.val) = ∑ j : Fin 8192, f j.val := by
  rw [Fin.sum_univ_eq_sum_range f 8192]
  rw [Finset.sum_congr rfl (fun J _ => Fin.sum_univ_eq_sum_range (fun q => f (1024 * J + q)) 1024)]
  exact sum_range_mul_blocks f 1024 8

end Cert.GraphLoss

end
-- ==== Proof.PreFacts.lean ====
/-
  The precondition, decoded. The certificate's precondition is a printed boolean function of the embeddings and the
  adjacency words: the conjunction of three "for all" statements, each a reduction by `and` of an array of one-bit
  words. Read at the extended reals and assumed to be 1, its second conjunct says every adjacency word is the word 0
  or the word 1, and its third says that each row's sum of the adjacency entries (read as signed integers) is at
  least 1, which is the row degree of the shared specification.
-/
import proofs.«427371_j75651553951784_3_alg».proof.Pre_finite_inputs
import proofs.«427371_j75651553951784_3_alg».proof.Proof.Gen.Pre_finite_inputs
import proofs.«427371_j75651553951784_3_alg».proof.Proof.Spec
import Idealize.ShloMosaic.Lib.ReduceAll
import Idealize.ShloMosaic.Lib.StableHlo.Predicate
import Idealize.ShloMosaic.PureOps.Ideal.Laws
import Idealize.ShloMosaic.Lib.IdealHost

noncomputable section

namespace Cert.GraphLoss

open Idealize.ShloMosaic Idealize.ShloMosaic.ValueIdx
open Cert.Pre_finite_inputs
open scoped BigOperators

/-- The scalar shape has exactly one index. -/
instance subsingleton_scalar_idx : Subsingleton Cert.Pre_finite_inputs.S_.Idx :=
  ⟨fun _ _ => funext fun d => d.elim0⟩

/-- An ordered "greater or equal" comparison of extended reals that answers 1 is the inequality. -/
theorem le_of_cmp_oge {x y : EReal} (h : Ideal.cmp .oge x y = 1#1) : y ≤ x := by
  have h' : BitVec.ofBool (decide (y ≤ x)) = 1#1 := h
  simpa [StableHlo.Predicate.ofBool_eq_one_iff] using h'

/-- Under the precondition every adjacency word is 0 or 1: the second conjunct is the `and` over all entries of
    "(the entry equals 0) or (the entry equals 1)". -/
theorem adj01_of_pre (e : SE.Idx → EReal) (a : SA.Idx → BitVec 32)
    (h : Cert.Pre_finite_inputs.fn (F := Ideal) e a = fun _ => 1#1) :
    ∀ i j : Fin 8192, a (ix2 i j) = 0#32 ∨ a (ix2 i j) = 1#32 := by
  intro i j
  have h0 := congrFun h ix0
  dsimp only [Cert.Pre_finite_inputs.fn, Cert.Pre_finite_inputs.fn_part1] at h0
  obtain ⟨h12, -⟩ := IntOp.andi_eq_one.1 h0
  obtain ⟨-, h2⟩ := IntOp.andi_eq_one.1 h12
  have hij := Host.reduce_andi_all _ _ _ _ _ h2 (ix2 i j)
  rcases IntOp.ori_eq_one.1 hij with hc | hc
  · left
    have := StableHlo.Predicate.cmpi_eq_iff.1 hc
    rw [this, broadcastInDim_scalar_apply]; rfl
  · right
    have := StableHlo.Predicate.cmpi_eq_iff.1 hc
    rw [this, broadcastInDim_scalar_apply]; rfl

/-- Under the precondition every row's degree is at least 1: the third conjunct is the `and` over the rows of
    "the sum along the row of the entries, converted exactly to reals and started from 0, is at least 1". -/
theorem deg_ge_one_of_pre (e : SE.Idx → EReal) (a : SA.Idx → BitVec 32)
    (h : Cert.Pre_finite_inputs.fn (F := Ideal) e a = fun _ => 1#1) :
    ∀ i : Fin 8192, (1 : EReal) ≤ deg a i := by
  intro i
  have h0 := congrFun h ix0
  dsimp only [Cert.Pre_finite_inputs.fn, Cert.Pre_finite_inputs.fn_part1] at h0
  obtain ⟨-, h3⟩ := IntOp.andi_eq_one.1 h0
  have hi := Host.reduce_andi_all _ _ _ _ _ h3 (ix1 i)
  rw [cmpf_apply, Ideal.cmpf_def] at hi
  have hle := le_of_cmp_oge hi
  rw [broadcastInDim_scalar_apply, constant_apply, Ideal.ofBits_one_f32, hostReduceAdd_apply,
    Ideal.hostReduceAdd_single Facts.reducesTo_S8192x8192_S8192_d1 (by decide), constant_apply, Ideal.ofBits_zero_f32,
    zero_add] at hle
  refine hle.trans (le_of_eq ?_)
  unfold deg
  refine Finset.sum_congr rfl fun k _ => ?_
  unfold adjf
  rw [sitofp_apply]
  exact congrArg (fun w : BitVec 32 => ((w.toInt : ℝ) : EReal))
    (congrArg a (funext fun d => Fin.ext (by match d with | ⟨0, _⟩ => rfl | ⟨1, _⟩ => rfl)))

end Cert.GraphLoss

end
-- ==== Proof.RefValue.lean ====
import proofs.«427371_j75651553951784_3_alg».proof.Defs
import proofs.«427371_j75651553951784_3_alg».proof.Proof.Gen.ReferenceIdeal.Run
import proofs.«427371_j75651553951784_3_alg».proof.Proof.Gen.ReferenceIdeal.Read
import proofs.«427371_j75651553951784_3_alg».proof.Proof.Spec
import Idealize.ShloMosaic.PureOps.Ideal
import Idealize.ShloMosaic.PureOps.Ideal.Laws
import Idealize.ShloMosaic.Lib.ValueIdx

/-
  The reference program's result, read as the specification's loss.

  The reference computes, for embeddings `e` and adjacency words `a`, the scalar `−X + 0.01·T`. Here `X` is the sum over
  all pairs `(i, j)` of `√(max (max 0 (sq i + sq j − 2·gram i j)) ε) · adjf i j / deg i`: the squared norms `sq` are row
  sums of `e·e` broadcast as a column and as a row, `gram` is the contraction of `e` with its transpose (the transpose
  read at `(k, j)` is `e` at `(j, k)`), `adjf` the adjacency word as a signed integer, `deg` its row sum broadcast
  along the row. Each operation is read at an index built from coordinates; the sum over the rank-2 index set is the
  double sum over the coordinates, and the zero initial values of the sums drop. `T` is the compactness term, kept as
  the term the program states.
-/

noncomputable section

open Idealize.ShloMosaic Idealize.ShloMosaic.TcCoe Idealize.SL.Sem

namespace Cert.ReferenceIdeal.RefValue

open Cert.ReferenceIdeal Cert.ReferenceIdeal.Gen Cert.ReferenceIdeal.Read Cert.GraphLoss
open Idealize.ShloMosaic.ValueIdx
open scoped BigOperators

/-! ## Read's composed index functions are the coordinate constructors -/

theorem idx_v1_ix (i : Fin 8192) (k : Fin 512) : idx_main_v1 (ix1 i) k = ix2 i k :=
  funext fun a => Fin.ext (by match a with | ⟨0, _⟩ => rfl | ⟨1, _⟩ => rfl)

theorem idx_v17_ix (i : Fin 8192) (k : Fin 8192) : idx_main_v17 (ix1 i) k = ix2 i k :=
  funext fun a => Fin.ext (by match a with | ⟨0, _⟩ => rfl | ⟨1, _⟩ => rfl)

theorem lidx_v3_ix (i j : Fin 8192) (k : Fin 512) : lidx_main_v3 (ix2 i j) k = ix2 i k :=
  funext fun a => Fin.ext (by match a with | ⟨0, _⟩ => rfl | ⟨1, _⟩ => rfl)

theorem ridx_v3_ix (i j : Fin 8192) (k : Fin 512) : idx_main_v2 (ridx_main_v3 (ix2 i j) k) = ix2 j k :=
  funext fun a => Fin.ext (by match a with | ⟨0, _⟩ => rfl | ⟨1, _⟩ => rfl)

theorem idx_v6_ix (i j : Fin 8192) : idx_main_v4 (idx_main_v6 (ix2 i j)) = ix1 i :=
  funext fun a => Fin.ext (by match a with | ⟨0, _⟩ => rfl)

theorem idx_v7_ix (i j : Fin 8192) : idx_main_v5 (idx_main_v7 (ix2 i j)) = ix1 j :=
  funext fun a => Fin.ext (by match a with | ⟨0, _⟩ => rfl)

theorem idx_v20_ix (i j : Fin 8192) : idx_main_v18 (idx_main_v20 (ix2 i j)) = ix1 i :=
  funext fun a => Fin.ext (by match a with | ⟨0, _⟩ => rfl)

/-! ## The stages at an index -/

/-- The row sums of `e·e` are the squared norms. -/
theorem v1_at (e : FVec Ideal S8192x512 .f32) (i : Fin 8192) :
    val_main_v1 (F := Ideal) e (ix1 i) = sq e i := by
  rw [val_main_v1_apply, val_main_cst_apply]
  simp only [val_main_v0_apply, idx_v1_ix, Ideal.mulf_def, Ideal.ofBits_def, Ideal.ofBits_zero_f32, zero_add, GraphLoss.sq]

/-- The contraction of `e` with its transpose is the Gram matrix. -/
theorem v3_at (e : FVec Ideal S8192x512 .f32) (i j : Fin 8192) :
    val_main_v3 (F := Ideal) e (ix2 i j) = gram e i j := by
  rw [val_main_v3_apply]
  simp only [val_main_v2_apply, lidx_v3_ix, ridx_v3_ix, GraphLoss.gram]

/-- The row sums of the converted adjacency words are the degrees. -/
theorem v17_at (a : IVec S8192x8192 32) (i : Fin 8192) :
    val_main_v17 (F := Ideal) a (ix1 i) = deg a i := by
  rw [val_main_v17_apply, val_main_cst_3_apply]
  simp only [val_main_v16_apply, idx_v17_ix, Ideal.ofBits_def, Ideal.ofBits_zero_f32, zero_add, GraphLoss.deg, GraphLoss.adjf]
  rfl

/-- The clipped, floored distance. -/
theorem v15_at (e : FVec Ideal S8192x512 .f32) (i j : Fin 8192) :
    val_main_v15 (F := Ideal) e (ix2 i j) = distClip e i j := by
  rw [val_main_v15_apply, val_main_v14_apply, val_main_v12_apply, val_main_v13_apply, val_main_cst_2_apply,
    val_main_call0_v1_apply, val_main_call0_v0_apply, val_main_cst_1_apply, val_main_v11_apply, val_main_v8_apply,
    val_main_v10_apply, val_main_v9_apply, val_main_cst_0_apply, val_main_v6_apply, val_main_v4_apply,
    val_main_v7_apply, val_main_v5_apply, idx_v6_ix, idx_v7_ix, v1_at, v1_at, v3_at]
  simp only [Ideal.hostUnary_sqrt_def, Ideal.maximumf_def, Ideal.subf_def, Ideal.addf_def, Ideal.mulf_def,
    Ideal.ofBits_def, Ideal.ofBits_zero_f32, GraphLoss.distClip, GraphLoss.d2, GraphLoss.two, GraphLoss.eps]

/-- One summand of the neighbourhood term. -/
theorem v21_at (e : FVec Ideal S8192x512 .f32) (a : IVec S8192x8192 32) (i j : Fin 8192) :
    val_main_v21 (F := Ideal) e a (ix2 i j) = Ideal.div (distClip e i j * adjf a i j) (deg a i) := by
  rw [val_main_v21_apply, val_main_v19_apply, val_main_v20_apply, val_main_v18_apply, idx_v20_ix, v17_at, v15_at,
    val_main_v16_apply]
  simp only [Ideal.hostDivf_def, Ideal.mulf_def, GraphLoss.adjf]
  rfl

/-- The total over both axes is the double sum over the coordinates. -/
theorem v22_at (e : FVec Ideal S8192x512 .f32) (a : IVec S8192x8192 32) :
    val_main_v22 (F := Ideal) e a ix0 = nbrR e a := by
  rw [val_main_v22_apply, val_main_cst_4_apply, Ideal.ofBits_def, Ideal.ofBits_zero_f32, zero_add, sum_idx2]
  simp only [v21_at, GraphLoss.nbrR]

/-! ## The result -/

/-- the reference's compactness scalar: the operand of the final 0.01·(…) at the one index of a scalar -/
def tailR (e : FVec Ideal Cert.ReferenceIdeal.S8192x512 .f32) : EReal :=
  (Host.reduceAdd (Host.sqrt (Host.reduceAdd (mulf (subf e (broadcastInDim S8192x512 ![0, 1] bcast_S1x512_S8192x512_0_1 (broadcastInDim S1x512 ![1] bcast_S512_S1x512_1 (Host.divf (Host.reduceAdd e (constant S_ .f32 0x00000000#32) reducesTo_S8192x512_S512_d0 h_S_) (broadcastInDim S512 ![] bcast_S_S512 (constant S_ .f32 0x46000000#32)))))) (subf e (broadcastInDim S8192x512 ![0, 1] bcast_S1x512_S8192x512_0_1 (broadcastInDim S1x512 ![1] bcast_S512_S1x512_1 (Host.divf (Host.reduceAdd e (constant S_ .f32 0x00000000#32) reducesTo_S8192x512_S512_d0 h_S_) (broadcastInDim S512 ![] bcast_S_S512 (constant S_ .f32 0x46000000#32))))))) (constant S_ .f32 0x00000000#32) reducesTo_S8192x512_S8192_d1 h_S_)) (constant S_ .f32 0x00000000#32) reducesTo_S8192_S_d0 h_S_) ValueIdx.ix0

/-- The reference's last stage is the specification's loss of the neighbourhood term and the compactness scalar. -/
theorem value_eq (e : FVec Ideal S8192x512 .f32) (a : IVec S8192x8192 32) :
    val_main_v33 (F := Ideal) e a = lossOf (nbrR e a) (tailR e) := by
  funext i
  have hi := eq_ix0 i
  subst hi
  rw [val_main_v33_apply, val_main_v23_apply, val_main_v32_apply, val_main_cst_8_apply, v22_at]
  simp only [Ideal.addf_def, Ideal.hostNegf_def, Ideal.negf_def, Ideal.mulf_def, Ideal.ofBits_def, GraphLoss.lossOf]
  rfl

/-- The reference's run, its result stated as the specification's loss. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33) = lossOf (nbrR (m ((c.tc : Thread nD τ).loc main_arg0)) (m ((c.tc : Thread nD τ).loc main_arg1))) (tailR (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c).1.trans ((val_main_v33_eq _ _).trans (value_eq _ _)), (h c).2⟩)
    (Cert.ReferenceIdeal.Value.run (F := Ideal) m ρ)

end Cert.ReferenceIdeal.RefValue

end
-- ==== Proof.KPieces.lean ====
/-
  What one run of the kernel body leaves behind, case by case, as values.

  The body keeps two column accumulators across the eight column blocks of a row block: the running sum of the masked
  distances and the running degree. At the first column block it zeroes both and then adds the block's contribution;
  at a later column block it adds the contribution to what the block before left; at the last column block it also
  stores the quotient of the first accumulator by the second floored at one. A block's contribution to the first
  accumulator is the lane sum of the masked distance tile, computed from two 1024-row slabs of the embedding table
  (the row block's and the column block's), the two squared-norm strips and the adjacency tile; its contribution to the
  second is column zero of the adjacency tile times the all-ones tile.
-/
import proofs.«427371_j75651553951784_3_alg».proof.Proof.Gen.KernelIdeal.Frame
import Idealize.ShloMosaic.Lib.Pipeline.Value
import Idealize.ShloMosaic.Lib.Tactic

set_option maxRecDepth 16384

noncomputable section

namespace Cert.KernelIdeal.KVal

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The row block's slab of the embedding table: rows `1024·i₀ …` of the table the body holds whole. -/
abbrev slabI (i : grid0.Coords) (x0 : Vec F S8192x512 .bf16) : Vec F S1024x512 .bf16 :=
  View.ld x0 (Rect.unit (s := S8192x512) (k0_off1 i) S1024x512.size (k0_off1_inb i))

/-- The column block's slab of the embedding table: rows `1024·i₁ …`. -/
abbrev slabJ (i : grid0.Coords) (x0 : Vec F S8192x512 .bf16) : Vec F S1024x512 .bf16 :=
  View.ld x0 (Rect.unit (s := S8192x512) (k0_off2 i) S1024x512.size (k0_off2_inb i))

/-- A block's masked distance tile. -/
abbrev tile (i : grid0.Coords) (x0 : Vec F S8192x512 .bf16) (x1 : Vec F S1024x1 .f32) (x2 : Vec F S1x1024 .f32)
    (x3 : Vec F S1024x1024 .i32) : FVec F S1024x1024 .f32 :=
  k0_pay6 (slabI i x0) (slabJ i x0) x1 x2 x3

/-- First column block, first accumulator: zero, then the block's lane sums added. -/
theorem num_A (c : Dev nD) (i : grid0.Coords) (arg2 : Memref sig .tc .vmem S8192x512 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x128 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S8192x512 .bf16) (x1 : Vec F S1024x1 .f32) (x2 : Vec F S1x1024 .f32) (x3 : Vec F S1024x1024 .i32) (x4 : Vec F S1024x128 .bf16) :
    sout0_A_0 c i arg2 harg2 arg3 harg3 arg4 harg4 arg5 harg5 arg6 harg6 arg7 harg7 arg8 harg8 arg9 harg9 hc0 hc1 x0 x1 x2 x3 x4 = k0_pay1 (tile i x0 x1 x2 x3) k0_pay4 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread,
    View.ld_unit_zero (S := S1024x1) hz, View.ld_unit_zero (S := S1x1024) hz, View.ld_unit_zero (S := S1024x1024) hz]
  rfl

/-- First column block, second accumulator: zero, then the block's degree column added. -/
theorem deg_A (c : Dev nD) (i : grid0.Coords) (arg2 : Memref sig .tc .vmem S8192x512 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x128 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S8192x512 .bf16) (x1 : Vec F S1024x1 .f32) (x2 : Vec F S1x1024 .f32) (x3 : Vec F S1024x1024 .i32) (x4 : Vec F S1024x128 .bf16) :
    sout0_A_1 c i arg2 harg2 arg3 harg3 arg4 harg4 arg5 harg5 arg6 harg6 arg7 harg7 arg8 harg8 arg9 harg9 hc0 hc1 x0 x1 x2 x3 x4 = k0_pay2 (k0_pay7 x3 x4) k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, harg5.read_unread, harg6.read_unread,
    View.ld_unit_zero (S := S1024x1024) hz, View.ld_unit_zero (S := S1024x128) hz]

/-- A middle column block, first accumulator: the block's lane sums added to what was there. -/
theorem num_B (c : Dev nD) (i : grid0.Coords) (arg2 : Memref sig .tc .vmem S8192x512 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x128 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S8192x512 .bf16) (x1 : Vec F S1024x1 .f32) (x2 : Vec F S1x1024 .f32) (x3 : Vec F S1024x1024 .i32) (x4 : Vec F S1024x128 .bf16) (xs0 xs1 : Vec F S1024x1 .f32) :
    sout0_B_0 c i arg2 harg2 arg3 harg3 arg4 harg4 arg5 harg5 arg6 harg6 arg7 harg7 arg8 harg8 arg9 harg9 hc0 hc1 x0 x1 x2 x3 x4 xs0 xs1 = k0_pay1 (tile i x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg8.read_unread,
    View.ld_unit_zero (S := S1024x1) hz, View.ld_unit_zero (S := S1x1024) hz, View.ld_unit_zero (S := S1024x1024) hz]
  rfl

/-- A middle column block, second accumulator. -/
theorem deg_B (c : Dev nD) (i : grid0.Coords) (arg2 : Memref sig .tc .vmem S8192x512 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x128 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S8192x512 .bf16) (x1 : Vec F S1024x1 .f32) (x2 : Vec F S1x1024 .f32) (x3 : Vec F S1024x1024 .i32) (x4 : Vec F S1024x128 .bf16) (xs0 xs1 : Vec F S1024x1 .f32) :
    sout0_B_1 c i arg2 harg2 arg3 harg3 arg4 harg4 arg5 harg5 arg6 harg6 arg7 harg7 arg8 harg8 arg9 harg9 hc0 hc1 x0 x1 x2 x3 x4 xs0 xs1 = k0_pay2 (k0_pay7 x3 x4) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readAt_eq_ld, harg5.read_unread, harg6.read_unread, harg9.read_unread,
    View.ld_unit_zero (S := S1024x1) hz, View.ld_unit_zero (S := S1024x1024) hz, View.ld_unit_zero (S := S1024x128) hz]

/-- The last column block, first accumulator. -/
theorem num_C (c : Dev nD) (i : grid0.Coords) (arg2 : Memref sig .tc .vmem S8192x512 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x128 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S8192x512 .bf16) (x1 : Vec F S1024x1 .f32) (x2 : Vec F S1x1024 .f32) (x3 : Vec F S1024x1024 .i32) (x4 : Vec F S1024x128 .bf16) (xs0 xs1 : Vec F S1024x1 .f32) :
    sout0_C_0 c i arg2 harg2 arg3 harg3 arg4 harg4 arg5 harg5 arg6 harg6 arg7 harg7 arg8 harg8 arg9 harg9 hc0 hc1 x0 x1 x2 x3 x4 xs0 xs1 = k0_pay1 (tile i x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg8.read_unread,
    View.ld_unit_zero (S := S1024x1) hz, View.ld_unit_zero (S := S1x1024) hz, View.ld_unit_zero (S := S1024x1024) hz]
  rfl

/-- The last column block, second accumulator. -/
theorem deg_C (c : Dev nD) (i : grid0.Coords) (arg2 : Memref sig .tc .vmem S8192x512 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x128 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S8192x512 .bf16) (x1 : Vec F S1024x1 .f32) (x2 : Vec F S1x1024 .f32) (x3 : Vec F S1024x1024 .i32) (x4 : Vec F S1024x128 .bf16) (xs0 xs1 : Vec F S1024x1 .f32) :
    sout0_C_1 c i arg2 harg2 arg3 harg3 arg4 harg4 arg5 harg5 arg6 harg6 arg7 harg7 arg8 harg8 arg9 harg9 hc0 hc1 x0 x1 x2 x3 x4 xs0 xs1 = k0_pay2 (k0_pay7 x3 x4) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg5.read_unread, harg6.read_unread, harg9.read_unread,
    View.ld_unit_zero (S := S1024x1) hz, View.ld_unit_zero (S := S1024x1024) hz, View.ld_unit_zero (S := S1024x128) hz]

/-- The last column block, the output: the finished first accumulator over the finished second floored at one. -/
theorem out_C (c : Dev nD) (i : grid0.Coords) (arg2 : Memref sig .tc .vmem S8192x512 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x1024 .i32) (harg5 : arg5.IsWhole) (arg6 : Memref sig .tc .vmem S1024x128 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S8192x512 .bf16) (x1 : Vec F S1024x1 .f32) (x2 : Vec F S1x1024 .f32) (x3 : Vec F S1024x1024 .i32) (x4 : Vec F S1024x128 .bf16) (xs0 xs1 : Vec F S1024x1 .f32) :
    out0_C_5 c i arg2 harg2 arg3 harg3 arg4 harg4 arg5 harg5 arg6 harg6 arg7 harg7 arg8 harg8 arg9 harg9 hc0 hc1 x0 x1 x2 x3 x4 xs0 xs1
      = k0_pay3 (k0_pay1 (tile i x0 x1 x2 x3) xs0) (k0_pay2 (k0_pay7 x3 x4) xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg8.read_unread, harg9.read_unread,
    View.ld_unit_zero (S := S1024x1) hz, View.ld_unit_zero (S := S1x1024) hz, View.ld_unit_zero (S := S1024x1024) hz, View.ld_unit_zero (S := S1024x128) hz]
  rfl

end Cert.KernelIdeal.KVal

end
-- ==== Proof.KPayIdx.lean ====
/-
  The arithmetic of one grid step, read entry by entry over the extended reals.

  A step sees a 1024 × 1024 tile of pairs: row `r` of the row block against row `q` of the column block. Every value
  the step stores or carries forward is read here at a single entry:
  • the masked distance: where the adjacency word at `(r, q)` is not zero, the square root of
    `max (|x_r|² + |x_q|² − 2 · ⟨x_r, x_q⟩) ε`, and zero elsewhere; the squared norms arrive as a column and as a
    row, the inner product is a sum over the 512 features, and `2` and `ε` stay the words the program names;
  • the neighbour product: the sum over the tile's 1024 columns of the adjacency word, read as a signed integer,
    times the matching entry of the right factor;
  • the two running columns: what was there plus the tile's row sum of masked distances, and what was there plus
    the first lane of the neighbour product;
  • the closing quotient: the first running column over the larger of the second and one;
  • the two columns a row block starts from: zero.
  All the work is the bookkeeping of indices: a cast to the same shape does nothing, a column or a row spread over
  the tile reads its one coordinate, a transposed block swaps its coordinates, a slice from the origin reads the
  same place, a lane sum and a matrix product run over the one coordinate they contract.
-/
import proofs.«427371_j75651553951784_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.KVal

open Cert.KernelIdeal Cert.KernelIdeal.Gen Idealize.ShloMosaic Idealize.ShloMosaic.ValueIdx
open scoped BigOperators

/-! ## Layout reads the library leaves to its users -/

/-- A column `[a, 1]` spread over `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column `[a, 1]` reads, at `(i, u)`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The two zero payloads -/

theorem pay4_apply (y : S1024x1.Idx) : k0_pay4 (F := Ideal) y = 0 := by
  unfold k0_pay4
  rw [shapeCast_self]
  exact Ideal.ofBits_zero_f32

theorem pay5_apply (y : S1024x1.Idx) : k0_pay5 (F := Ideal) y = 0 := by
  unfold k0_pay5
  rw [shapeCast_self]
  exact Ideal.ofBits_zero_f32

/-! ## The final quotient -/

theorem pay3_apply (v53 v54 : Vec Ideal S1024x1 .f32) (r : Fin 1024) :
    k0_pay3 (F := Ideal) v53 v54 (ix2 r 0) = Ideal.div (v53 (ix2 r 0)) (max (v54 (ix2 r 0)) 1) := by
  unfold k0_pay3
  rw [divf_apply, maximumf_apply, broadcast_apply]
  exact congrArg (fun t => Ideal.div (v53 (ix2 r 0)) (max (v54 (ix2 r 0)) t)) Ideal.ofBits_one_f32

/-! ## The two accumulations -/

theorem pay2_apply (v36 : FVec Ideal S1024x128 .f32) (v45 : Vec Ideal S1024x1 .f32) (r : Fin 1024) :
    k0_pay2 (F := Ideal) v36 v45 (ix2 r 0) = v45 (ix2 r 0) + v36 (ix2 r 0) := by
  unfold k0_pay2
  rw [shapeCast_self, addf_apply]
  refine congrArg (v45 (ix2 r 0) + ·) ?_
  exact extractStridedSlice_apply ![0, 0] v36 slices_S1024x128_o0_0_S1024x1 (ix2 r 0) (ix2 r 0) (fun a =>
    match a with
    | ⟨0, _⟩ => by show r.val = 0 + r.val; omega
    | ⟨1, _⟩ => rfl)

theorem pay1_apply (v32 : FVec Ideal S1024x1024 .f32) (v38 : Vec Ideal S1024x1 .f32) (r : Fin 1024) :
    k0_pay1 (F := Ideal) v32 v38 (ix2 r 0) = v38 (ix2 r 0) + ∑ q : Fin 1024, v32 (ix2 r q) := by
  unfold k0_pay1
  rw [shapeCast_self, addf_apply]
  refine congrArg (v38 (ix2 r 0) + ·) ?_
  refine (shapeCast_a_a1_apply _ shapeCasts_S1024_S1024x1 r 0).trans ?_
  refine (Ideal.multiReduction_add_single v32 _ reduces_S1024x1024_S1024 _ _ (ix1 r)).trans ?_
  refine Finset.sum_congr rfl fun q _ => congrArg v32 (funext fun a => Fin.ext ?_)
  match a with
  | ⟨0, _⟩ => rfl
  | ⟨1, _⟩ => rfl

/-! ## The operand indices of the two products

Both products contract the left operand's second axis with the right operand's first. At the result index
`i` and the contraction position `q`, the left operand is read at `(i 0, q)` and the right one at `(q, i 1)`: one
coordinate fact per operand axis, for each of the two dimension records. -/

theorem gramL_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

theorem gramL_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q

theorem gramR_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q

theorem gramR_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

theorem nbrL_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl

theorem nbrL_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q

theorem nbrR_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q

theorem nbrR_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The first product into the zero accumulator, at `(r, c)`: the sum over the 512 features of the left operand's row
`r` against the right operand's column `c`. -/
theorem gram_apply (x : FVec Ideal S1024x512 .bf16) (y : FVec Ideal S512x1024 .bf16) (r c : Fin 1024) :
    matmul dot_S1024x512_S512x1024_S1024x1024_1_0_0_1_n_n none x y (constant (F := Ideal) S1024x1024 .f32 0x00000000#32) (ix2 r c)
      = ∑ k : Fin 512, x (ix2 r k) * y (ix2 k c) := by
  refine (Ideal.matmul_constant_zero_apply dot_S1024x512_S512x1024_S1024x1024_1_0_0_1_n_n none x y (ix2 r c)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r c)
      ((contrEquiv1 dot_S1024x512_S512x1024_S1024x1024_1_0_0_1_n_n 512 rfl rfl).symm k) = ix2 r k :=
    funext fun a => Fin.ext (by
      match a with
      | ⟨0, _⟩ => exact gramL_0 _ _
      | ⟨1, _⟩ => exact (gramL_1 _ _).trans hk)
  have er : dot_S1024x512_S512x1024_S1024x1024_1_0_0_1_n_n.rhsIdx (ix2 r c)
      ((contrEquiv1 dot_S1024x512_S512x1024_S1024x1024_1_0_0_1_n_n 512 rfl rfl).symm k) = ix2 k c :=
    funext fun a => Fin.ext (by
      match a with
      | ⟨0, _⟩ => exact (gramR_0 _ _).trans hk
      | ⟨1, _⟩ => exact gramR_1 _ _)
  rw [el, er]

/-- The second product into the zero accumulator, at `(r, l)`: the sum over the 1024 columns of the left operand's
row `r` against the right operand's column `l`. -/
theorem nbr_apply (x : FVec Ideal S1024x1024 .bf16) (y : FVec Ideal S1024x128 .bf16) (r : Fin 1024) (l : Fin 128) :
    matmul dot_S1024x1024_S1024x128_S1024x128_1_0_0_1_n_n none x y (constant (F := Ideal) S1024x128 .f32 0x00000000#32) (ix2 r l)
      = ∑ q : Fin 1024, x (ix2 r q) * y (ix2 q l) := by
  refine (Ideal.matmul_constant_zero_apply dot_S1024x1024_S1024x128_S1024x128_1_0_0_1_n_n none x y (ix2 r l)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r l)
      ((contrEquiv1 dot_S1024x1024_S1024x128_S1024x128_1_0_0_1_n_n 1024 rfl rfl).symm k) = ix2 r k :=
    funext fun a => Fin.ext (by
      match a with
      | ⟨0, _⟩ => exact nbrL_0 _ _
      | ⟨1, _⟩ => exact (nbrL_1 _ _).trans hk)
  have er : dot_S1024x1024_S1024x128_S1024x128_1_0_0_1_n_n.rhsIdx (ix2 r l)
      ((contrEquiv1 dot_S1024x1024_S1024x128_S1024x128_1_0_0_1_n_n 1024 rfl rfl).symm k) = ix2 k l :=
    funext fun a => Fin.ext (by
      match a with
      | ⟨0, _⟩ => exact (nbrR_0 _ _).trans hk
      | ⟨1, _⟩ => exact nbrR_1 _ _)
  rw [el, er]

/-- The first product with its right operand a transposed block, at `(r, c)`: row `r` of the one block against row `c` of
the other. -/
theorem gramT_apply (x y : FVec Ideal S1024x512 .bf16) (r c : Fin 1024) :
    matmul dot_S1024x512_S512x1024_S1024x1024_1_0_0_1_n_n none x
      (transpose S512x1024 [1, 0] y transposes_S1024x512_p1_0_S512x1024)
      (constant (F := Ideal) S1024x1024 .f32 0x00000000#32) (ix2 r c) = ∑ k : Fin 512, x (ix2 r k) * y (ix2 c k) := by
  refine (gram_apply x _ r c).trans ?_
  refine Finset.sum_congr rfl fun k _ => congrArg (x (ix2 r k) * ·) ?_
  exact transpose_ix2_apply y _ k c

/-! ## The neighbour product -/

theorem pay7_apply (v28 : Vec Ideal S1024x1024 .i32) (v34 : Vec Ideal S1024x128 .bf16) (r : Fin 1024) (l : Fin 128) :
    k0_pay7 (F := Ideal) v28 v34 (ix2 r l) = ∑ q : Fin 1024, (((v28 (ix2 r q)).toInt : ℝ) : EReal) * v34 (ix2 q l) := by
  unfold k0_pay7
  rw [shapeCast_self]
  exact nbr_apply (sitofp .bf16 v28) v34 r l

/-! ## The masked distance -/

/-- The comparison "not equal" of two words yields the bit one exactly when they differ. -/
theorem cmpi_ne_iff (a b : BitVec 32) : IntOp.cmpi .ne a b = 1#1 ↔ a ≠ b := by
  show BitVec.ofBool (a != b) = 1#1 ↔ a ≠ b
  by_cases h : a = b
  · subst h
    rw [show (a != a) = false from bne_self_eq_false a]
    exact ⟨fun e => absurd e (by decide), fun e => absurd rfl e⟩
  · rw [show (a != b) = true from bne_iff_ne.2 h]
    exact ⟨fun _ => h, fun _ => rfl⟩

/-- A select on "the word is not zero" is the `if`. -/
theorem select_ne_zero {α : Type} (w : BitVec 32) (a b : α) :
    Scalar.select (IntOp.cmpi .ne w 0#32) a b = if w ≠ 0#32 then a else b := by
  by_cases h : w ≠ 0#32
  · rw [(cmpi_ne_iff w 0#32).2 h, select_one, if_pos h]
  · rw [eq_zero_of_ne_one (fun e => h ((cmpi_ne_iff w 0#32).1 e)), select_zero, if_neg h]

theorem pay6_apply (v8 v11 : Vec Ideal S1024x512 .bf16) (v15 : Vec Ideal S1024x1 .f32) (v17 : Vec Ideal S1x1024 .f32) (v28 : Vec Ideal S1024x1024 .i32) (r q : Fin 1024) :
    k0_pay6 (F := Ideal) v8 v11 v15 v17 v28 (ix2 r q) =
      if v28 (ix2 r q) ≠ 0#32 then Ideal.sqrt (max (v15 (ix2 r 0) + v17 (ix2 0 q) - Ideal.ofBits .f32 0x40000000#32 * ∑ k : Fin 512, v8 (ix2 r k) * v11 (ix2 q k)) (Ideal.ofBits .f32 0x2B8CBCCC#32)) else 0 := by
  unfold k0_pay6
  simp only [shapeCast_self]
  have e15 : broadcastTo S1024x1024 v15 broadcasts_S1024x1_S1024x1024 (ix2 r q) = v15 (ix2 r 0) :=
    broadcastTo_a1_ab_apply v15 _ r q
  have e17 : broadcastTo S1024x1024 v17 broadcasts_S1x1024_S1024x1024 (ix2 r q) = v17 (ix2 0 q) :=
    broadcastTo_1b_ab_apply v17 _ r q
  have eg := gramT_apply v8 v11 r q
  rw [select_apply]
  refine (select_ne_zero (v28 (ix2 r q)) _ _).trans ?_
  refine congrArg₂ (fun a b => if v28 (ix2 r q) ≠ 0#32 then a else b) ?_ Ideal.ofBits_zero_f32
  refine congrArg Ideal.sqrt ?_
  rw [maximumf_apply, broadcast_apply, subf_apply, addf_apply, mulf_apply, broadcast_apply, e15, e17, eg]
  rfl

end Cert.KernelIdeal.KVal
-- ==== Proof.KIdx.lean ====
/-
  Block coordinates. The 8192 rows (and columns) are cut into 8 blocks of 1024: entry `r` of block `B` is row
  `1024·B + r`. The index is taken modulo 8192 so that it is total in `B`; for `B < 8` the reduction does nothing.
-/

namespace Cert.GraphLoss

/-- Entry `r` of block `B`, as an index below 8192. -/
def blkIx (B : Nat) (r : Fin 1024) : Fin 8192 := ⟨(1024 * B + r.val) % 8192, Nat.mod_lt _ (by decide)⟩

theorem blkIx_val (B : Nat) (r : Fin 1024) (hB : B < 8) : (blkIx B r).val = 1024 * B + r.val := by
  show (1024 * B + r.val) % 8192 = _
  exact Nat.mod_eq_of_lt (by have := r.isLt; omega)

end Cert.GraphLoss
-- ==== Proof.KBlocks.lean ====
/-
  What the kernel program's arrays hold when its one kernel region is entered, and what each input window's block at a
  grid point is, read at an index, over the extended reals.

  Before the region the program squares the embeddings `e : [8192, 512]`, sums each row (`Σ_k e[i,k]²`, from a zero
  initial value, which adds nothing), lays the 8192 sums out once as a column `[8192, 1]` and once as a row
  `[1, 8192]` (row-major re-indexing: entry `(i, 0)`, resp. `(0, j)`, is sum `i`, resp. `j`), narrows the
  embeddings to bf16 (the identity on extended reals) and fills a `[1024, 128]` block with the bf16 word `0x3F80`,
  which is 1. So the column and the row both read `sq e`, the narrowed table is `e` itself and the block is all ones.

  The region runs over an 8 × 8 grid; point `t` has coordinates `(t / 8, t % 8)`. A window's block at a point starts at
  (block index) × (block size) on each axis. The narrowed table and the ones are held whole at every point (block index
  `(0, 0)`); the column of squared norms is cut into eight `[1024, 1]` strips indexed by `t / 8`, the row into eight
  `[1, 1024]` strips indexed by `t % 8`, the adjacency matrix into `[1024, 1024]` tiles indexed by `(t / 8, t % 8)`.
  Entry `r` of strip `B` is entry `1024·B + r` of the array (`blkIx B r`).

  Inside the body the table is loaded twice as a 1024-row slab, at row offsets `1024·(t / 8)` and `1024·(t % 8)` and
  column offset zero: a slab read at `(r, k)` is the table at `(1024·B + r, k)` for its block `B`.
-/
import proofs.«427371_j75651553951784_3_alg».proof.Proof.Gen.KernelIdeal.Frame
import proofs.«427371_j75651553951784_3_alg».proof.Proof.Spec
import proofs.«427371_j75651553951784_3_alg».proof.Proof.KIdx
import proofs.«427371_j75651553951784_3_alg».proof.Proof.KPieces
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

noncomputable section

namespace Cert.KernelIdeal.KVal

open Cert.KernelIdeal Cert.KernelIdeal.Gen Cert.GraphLoss Idealize.ShloMosaic Idealize.ShloMosaic.TcCoe
  Idealize.ShloMosaic.ValueIdx Idealize.SL.Sem
open scoped BigOperators

variable (m : (ℓ : Loc nD τ sig) → Buf (Elt Ideal) ℓ)

/-- the two arguments as the functions the specification takes -/
abbrev emb (c : Dev nD) : SE.Idx → EReal := m ((c : Thread nD τ).loc main_arg0)
abbrev adj (c : Dev nD) : SA.Idx → BitVec 32 := m ((c : Thread nD τ).loc main_arg1)

/-! ## What the arrays hold when the kernel region is entered -/

/-- The row sums of the squared embeddings, before they are reshaped: entry `i` is `Σ_k e[i,k]²` (the reduction's
    zero initial value dropped). -/
theorem V_rowsum (c : Dev nD) (i : Fin 8192) : (V m c main_v1 : Vec Ideal S8192 .f32) (ix1 i) = sq (emb m c) i := by
  have h : (V m c main_v1 : Vec Ideal S8192 .f32)
      = Host.reduceAdd (mulf (emb m c : FVec Ideal S8192x512 .f32) (emb m c : FVec Ideal S8192x512 .f32))
          (constant (F := Ideal) S_ .f32 0x00000000#32) Facts₀.reducesTo_S8192x512_S8192_d1 Facts₀.h_S_ := by
    show StableHlo.after hostOps0 (fun b => m (c, b)) (Proc.devRef .tc main_v1) = _
    after_results
  rw [h]
  simp only [Host.reduceAdd, Ideal.hostReduceAdd_def]
  rw [Ideal.hostReduceAdd_single Facts₀.reducesTo_S8192x512_S8192_d1 (by decide)]
  show Ideal.ofBits .f32 0x00000000#32 + _ = _
  rw [Ideal.ofBits_zero_f32, zero_add]
  unfold Cert.GraphLoss.sq
  refine Finset.sum_congr rfl fun k _ => ?_
  have hk : ∀ x : S8192x512.Idx, x = ix2 i k →
      emb m c x * emb m c x = emb m c (ix2 i k) * emb m c (ix2 i k) := by
    intro x hx; subst hx; rfl
  exact hk _ (funext fun a => Fin.ext (by match a with | ⟨0, _⟩ => rfl | ⟨1, _⟩ => rfl))

/-- The column of squared norms: the row sums laid out as [8192, 1]. -/
theorem V_sqcol (c : Dev nD) (i : Fin 8192) : (V m c main_v2 : Vec Ideal S8192x1 .f32) (ix2 i 0) = sq (emb m c) i := by
  have h : (V m c main_v2 : Vec Ideal S8192x1 .f32)
      = shapeCast S8192x1 (V m c main_v1 : Vec Ideal S8192 .f32) Facts₀.shapeCasts_S8192_S8192x1 := by
    show StableHlo.after hostOps0 (fun b => m (c, b)) (Proc.devRef .tc main_v2)
      = shapeCast S8192x1 (StableHlo.after hostOps0 (fun b => m (c, b)) (Proc.devRef .tc main_v1)) _
    after_results
    rfl
  rw [h, shapeCast_apply _ _ _ (ix1 i) (by
    rw [Shape.rowMajor_val_two, Shape.rowMajor_val_one]
    show i.val = i.val * 1 + 0
    omega)]
  exact V_rowsum m c i

/-- The row of squared norms: the row sums laid out as [1, 8192]. -/
theorem V_sqrow (c : Dev nD) (j : Fin 8192) : (V m c main_v3 : Vec Ideal S1x8192 .f32) (ix2 0 j) = sq (emb m c) j := by
  have h : (V m c main_v3 : Vec Ideal S1x8192 .f32)
      = shapeCast S1x8192 (V m c main_v1 : Vec Ideal S8192 .f32) Facts₀.shapeCasts_S8192_S1x8192 := by
    show StableHlo.after hostOps0 (fun b => m (c, b)) (Proc.devRef .tc main_v3)
      = shapeCast S1x8192 (StableHlo.after hostOps0 (fun b => m (c, b)) (Proc.devRef .tc main_v1)) _
    after_results
    rfl
  rw [h, shapeCast_a_1a_apply]
  exact V_rowsum m c j

/-- The embeddings narrowed to bf16: over the extended reals a change of format changes nothing. -/
theorem V_embbf (c : Dev nD) : (V m c main_v4 : Vec Ideal S8192x512 .bf16) = emb m c := by
  show StableHlo.after hostOps0 (fun b => m (c, b)) (Proc.devRef .tc main_v4) = _
  after_results
  rfl

/-- The block of ones the degree's matrix product multiplies by: the bf16 word 0x3F80 is 1. -/
theorem V_ones (c : Dev nD) (y : S1024x128.Idx) : (V m c main_v5 : Vec Ideal S1024x128 .bf16) y = (1 : EReal) := by
  have h : (V m c main_v5 : Vec Ideal S1024x128 .bf16)
      = broadcastInDim S1024x128 ![] Facts₀.bcast_S_S1024x128 (constant (F := Ideal) S_ .bf16 0x3F80#16) := by
    show StableHlo.after hostOps0 (fun b => m (c, b)) (Proc.devRef .tc main_v5) = _
    after_results
  rw [h, broadcastInDim_scalar_apply]
  show Ideal.ofBits .bf16 0x3F80#16 = 1
  exact Ideal.ofBits_one_bf16

/-! ## The windows' blocks -/

/-- Where each window's block sits, decided once over the 64 grid points: point `t` has coordinates
    `(t / 8, t % 8)`. -/
theorem index0 : ∀ t : Fin grid0.N, win0_0.index t (0 : Fin 2) = 0 ∧ win0_0.index t (1 : Fin 2) = 0 := by
  decide +kernel
theorem index1 : ∀ t : Fin grid0.N, win0_1.index t (0 : Fin 2) = t.val / 8 ∧ win0_1.index t (1 : Fin 2) = 0 := by
  decide +kernel
theorem index2 : ∀ t : Fin grid0.N, win0_2.index t (0 : Fin 2) = 0 ∧ win0_2.index t (1 : Fin 2) = t.val % 8 := by
  decide +kernel
theorem index3 : ∀ t : Fin grid0.N, win0_3.index t (0 : Fin 2) = t.val / 8 ∧ win0_3.index t (1 : Fin 2) = t.val % 8 := by
  decide +kernel
theorem index4 : ∀ t : Fin grid0.N, win0_4.index t (0 : Fin 2) = 0 ∧ win0_4.index t (1 : Fin 2) = 0 := by
  decide +kernel

/-- A grid point's two coordinates are below 8. -/
theorem div_lt (t : Fin cfg0.N) : t.val / 8 < 8 := by
  have h : cfg0.N = 64 := N_0
  have := t.isLt
  omega
theorem mod_lt (t : Fin cfg0.N) : t.val % 8 < 8 := Nat.mod_lt _ (by decide)

/-- Window 0 holds the whole bf16 embedding table at every point. -/
theorem iblk0_eq (c : Dev nD) (t : Fin cfg0.N) : (iblk m c 0 t : Vec Ideal S8192x512 .bf16) = emb m c := by
  have hi := index0 t
  rw [← V_embbf m c]
  funext y
  unfold iblk
  rw [View.read_apply]
  show V m c main_v4 _ = V m c main_v4 y
  congr 1
  funext a
  apply Fin.ext
  match a with
  | ⟨0, _⟩ => show win0_0.index t 0 * 8192 + 1 * (y 0).val = (y 0).val; rw [hi.1]; omega
  | ⟨1, _⟩ => show win0_0.index t 1 * 512 + 1 * (y 1).val = (y 1).val; rw [hi.2]; omega

/-- Window 1 at point `t` is rows `1024·(t/8) …` of the column of squared norms. -/
theorem iblk1_apply (c : Dev nD) (t : Fin cfg0.N) (r : Fin 1024) :
    (iblk m c 1 t : Vec Ideal S1024x1 .f32) (ix2 r 0) = sq (emb m c) (blkIx (t.val / 8) r) := by
  have hi := index1 t
  rw [← V_sqcol m c (blkIx (t.val / 8) r)]
  unfold iblk
  rw [View.read_apply]
  show V m c main_v2 _ = V m c main_v2 _
  congr 1
  funext a
  apply Fin.ext
  match a with
  | ⟨0, _⟩ =>
    show win0_1.index t 0 * 1024 + 1 * r.val = (blkIx (t.val / 8) r).val
    rw [hi.1, blkIx_val _ _ (div_lt t)]; omega
  | ⟨1, _⟩ => show win0_1.index t 1 * 1 + 1 * 0 = 0; rw [hi.2]

/-- Window 2 at point `t` is columns `1024·(t%8) …` of the row of squared norms. -/
theorem iblk2_apply (c : Dev nD) (t : Fin cfg0.N) (q : Fin 1024) :
    (iblk m c 2 t : Vec Ideal S1x1024 .f32) (ix2 0 q) = sq (emb m c) (blkIx (t.val % 8) q) := by
  have hi := index2 t
  rw [← V_sqrow m c (blkIx (t.val % 8) q)]
  unfold iblk
  rw [View.read_apply]
  show V m c main_v3 _ = V m c main_v3 _
  congr 1
  funext a
  apply Fin.ext
  match a with
  | ⟨0, _⟩ => show win0_2.index t 0 * 1 + 1 * 0 = 0; rw [hi.1]
  | ⟨1, _⟩ =>
    show win0_2.index t 1 * 1024 + 1 * q.val = (blkIx (t.val % 8) q).val
    rw [hi.2, blkIx_val _ _ (mod_lt t)]; omega

/-- Window 3 at point `t` is the adjacency tile of row block `t/8` and column block `t%8`. -/
theorem iblk3_apply (c : Dev nD) (t : Fin cfg0.N) (r q : Fin 1024) :
    (iblk m c 3 t : Vec Ideal S1024x1024 .i32) (ix2 r q)
      = adj m c (ix2 (blkIx (t.val / 8) r) (blkIx (t.val % 8) q)) := by
  have hi := index3 t
  show _ = m ((c : Thread nD τ).loc main_arg1) _
  rw [← V_main_arg1 m c]
  unfold iblk
  rw [View.read_apply]
  show V m c main_arg1 _ = V m c main_arg1 _
  congr 1
  funext a
  apply Fin.ext
  match a with
  | ⟨0, _⟩ =>
    show win0_3.index t 0 * 1024 + 1 * r.val = (blkIx (t.val / 8) r).val
    rw [hi.1, blkIx_val _ _ (div_lt t)]; omega
  | ⟨1, _⟩ =>
    show win0_3.index t 1 * 1024 + 1 * q.val = (blkIx (t.val % 8) q).val
    rw [hi.2, blkIx_val _ _ (mod_lt t)]; omega

/-- Window 4 holds the whole block of ones at every point. -/
theorem iblk4_apply (c : Dev nD) (t : Fin cfg0.N) (y : S1024x128.Idx) :
    (iblk m c 4 t : Vec Ideal S1024x128 .bf16) y = (1 : EReal) := by
  have hi := index4 t
  rw [← V_ones m c y]
  unfold iblk
  rw [View.read_apply]
  show V m c main_v5 _ = V m c main_v5 y
  congr 1
  funext a
  apply Fin.ext
  match a with
  | ⟨0, _⟩ => show win0_4.index t 0 * 1024 + 1 * (y 0).val = (y 0).val; rw [hi.1]; omega
  | ⟨1, _⟩ => show win0_4.index t 1 * 128 + 1 * (y 1).val = (y 1).val; rw [hi.2]; omega

/-! ## The two slabs of the embedding table the body loads -/

/-- The row offsets of the two loads, decided once over the grid: `1024·(t/8)` and `1024·(t%8)`, column offset zero. -/
theorem off1 : ∀ t : Fin grid0.N,
    k0_off1 (grid0.coords t) (0 : Fin 2) = 1024 * (t.val / 8) ∧ k0_off1 (grid0.coords t) (1 : Fin 2) = 0 := by
  decide +kernel
theorem off2 : ∀ t : Fin grid0.N,
    k0_off2 (grid0.coords t) (0 : Fin 2) = 1024 * (t.val % 8) ∧ k0_off2 (grid0.coords t) (1 : Fin 2) = 0 := by
  decide +kernel

/-- The row block's slab read at `(r, k)` is the table at row `1024·(t/8) + r`. -/
theorem slabI_apply (t : Fin cfg0.N) (x0 : Vec Ideal S8192x512 .bf16) (r : Fin 1024) (k : Fin 512) :
    slabI (grid0.coords t) x0 (ix2 r k) = x0 (ix2 (blkIx (t.val / 8) r) k) := by
  have ho := off1 t
  show x0 _ = x0 _
  congr 1
  funext a
  apply Fin.ext
  match a with
  | ⟨0, _⟩ =>
    show k0_off1 (grid0.coords t) 0 + 1 * r.val = (blkIx (t.val / 8) r).val
    rw [ho.1, blkIx_val _ _ (div_lt t)]; omega
  | ⟨1, _⟩ => show k0_off1 (grid0.coords t) 1 + 1 * k.val = k.val; rw [ho.2]; omega

/-- The column block's slab read at `(q, k)` is the table at row `1024·(t%8) + q`. -/
theorem slabJ_apply (t : Fin cfg0.N) (x0 : Vec Ideal S8192x512 .bf16) (q : Fin 1024) (k : Fin 512) :
    slabJ (grid0.coords t) x0 (ix2 q k) = x0 (ix2 (blkIx (t.val % 8) q) k) := by
  have ho := off2 t
  show x0 _ = x0 _
  congr 1
  funext a
  apply Fin.ext
  match a with
  | ⟨0, _⟩ =>
    show k0_off2 (grid0.coords t) 0 + 1 * q.val = (blkIx (t.val % 8) q).val
    rw [ho.1, blkIx_val _ _ (mod_lt t)]; omega
  | ⟨1, _⟩ => show k0_off2 (grid0.coords t) 1 + 1 * k.val = k.val; rw [ho.2]; omega

end Cert.KernelIdeal.KVal
-- ==== Proof.KInv.lean ====
/-
  The two accumulators, point by point, as sums of the specification's terms.

  Point `t` of the 8×8 grid is row block `t / 8`, column block `t % 8`. There the masked distance tile at `(r, q)` is the
  specification's masked distance of rows `1024·(t/8) + r` and `1024·(t%8) + q`: the two slabs of the embedding table
  are those rows, the squared-norm strips are their squared norms, the adjacency tile is that entry. So the block adds
  to the first accumulator, at row `r`, the sum over `q` of those masked distances, and to the second the sum over `q`
  of the adjacency entries read as reals (the ones tile contributes the factor 1). After column block `J` of row block
  `I` the accumulators hold the sums over the column blocks `0 … J`: by induction on the point, the first column block
  resetting them. At the last column block these are the full row sums, and the stored value is the specification's
  row value.
-/
import proofs.«427371_j75651553951784_3_alg».proof.Proof.KPieces
import proofs.«427371_j75651553951784_3_alg».proof.Proof.KPayIdx
import proofs.«427371_j75651553951784_3_alg».proof.Proof.KBlocks
import proofs.«427371_j75651553951784_3_alg».proof.Proof.Algebra

set_option maxRecDepth 16384

noncomputable section

namespace Cert.KernelIdeal.KVal

open Cert.KernelIdeal Cert.KernelIdeal.Gen Cert.GraphLoss Idealize.ShloMosaic Idealize.ShloMosaic.TcCoe
open Idealize.ShloMosaic.ValueIdx Idealize.SL.Sem
open scoped BigOperators

/-- The masked distance tile at `(r, q)` from what its five operands hold there. -/
theorem tile_of (i : grid0.Coords) (x0 : Vec Ideal S8192x512 .bf16) (x1 : Vec Ideal S1024x1 .f32)
    (x2 : Vec Ideal S1x1024 .f32) (x3 : Vec Ideal S1024x1024 .i32) (e : SE.Idx → EReal) (a : SA.Idx → BitVec 32)
    (I J : Fin 8192) (r q : Fin 1024)
    (hI : ∀ k : Fin 512, slabI i x0 (ix2 r k) = e (ix2 I k)) (hJ : ∀ k : Fin 512, slabJ i x0 (ix2 q k) = e (ix2 J k))
    (h1 : x1 (ix2 r 0) = sq e I) (h2 : x2 (ix2 0 q) = sq e J) (h3 : x3 (ix2 r q) = a (ix2 I J)) :
    tile i x0 x1 x2 x3 (ix2 r q) = masked e a I J := by
  refine (pay6_apply _ _ _ _ _ r q).trans ?_
  simp only [hI, hJ, h1, h2, h3]
  rfl

/-- The degree column at row `r`: the adjacency tile's row against a tile of ones. -/
theorem degcol_of (x3 : Vec Ideal S1024x1024 .i32) (x4 : Vec Ideal S1024x128 .bf16) (a : SA.Idx → BitVec 32)
    (I : Fin 8192) (Jf : Fin 1024 → Fin 8192) (r : Fin 1024)
    (h3 : ∀ q : Fin 1024, x3 (ix2 r q) = a (ix2 I (Jf q))) (h4 : ∀ y : S1024x128.Idx, x4 y = 1) :
    k0_pay7 (F := Ideal) x3 x4 (ix2 r 0) = ∑ q : Fin 1024, adjf a I (Jf q) := by
  refine (pay7_apply x3 x4 r 0).trans ?_
  simp only [h3, h4, mul_one]
  rfl

variable (m : (ℓ : Loc nD τ sig) → Buf (Elt Ideal) ℓ)

/-- Column block `J`'s contribution to row `1024·I + r`'s masked sum, and to its degree. -/
def numBlk (c : Dev nD) (I J : Nat) (r : Fin 1024) : EReal :=
  ∑ q : Fin 1024, masked (emb m c) (adj m c) (blkIx I r) (blkIx J q)
def degBlk (c : Dev nD) (I J : Nat) (r : Fin 1024) : EReal :=
  ∑ q : Fin 1024, adjf (adj m c) (blkIx I r) (blkIx J q)

/-- The tile at point `t`. -/
theorem tile_at (c : Dev nD) (t : Fin cfg0.N) (r q : Fin 1024) :
    tile (grid0.coords t) (iblk m c 0 t) (iblk m c 1 t) (iblk m c 2 t) (iblk m c 3 t) (ix2 r q)
      = masked (emb m c) (adj m c) (blkIx (t.val / 8) r) (blkIx (t.val % 8) q) :=
  tile_of (grid0.coords t) (iblk m c 0 t) (iblk m c 1 t) (iblk m c 2 t) (iblk m c 3 t) (emb m c) (adj m c)
    (blkIx (t.val / 8) r) (blkIx (t.val % 8) q) r q
    (fun k => (slabI_apply t (iblk m c 0 t) r k).trans (congrFun (iblk0_eq m c t) _))
    (fun k => (slabJ_apply t (iblk m c 0 t) q k).trans (congrFun (iblk0_eq m c t) _))
    (iblk1_apply m c t r) (iblk2_apply m c t q) (iblk3_apply m c t r q)

/-- The degree column at point `t`. -/
theorem degcol_at (c : Dev nD) (t : Fin cfg0.N) (r : Fin 1024) :
    k0_pay7 (F := Ideal) (iblk m c 3 t) (iblk m c 4 t) (ix2 r 0) = degBlk m c (t.val / 8) (t.val % 8) r :=
  degcol_of (iblk m c 3 t) (iblk m c 4 t) (adj m c) (blkIx (t.val / 8) r) (fun q => blkIx (t.val % 8) q) r
    (fun q => iblk3_apply m c t r q) (fun y => iblk4_apply m c t y)

/-- A first column block leaves the block's contribution in the first accumulator. -/
theorem numA_at (c : Dev nD) (t : Fin cfg0.N) (h0 : t.val % 8 = 0) (h1 : ¬t.val % 8 = 7) (r : Fin 1024) :
    (outsAt0 m c t.val t.isLt).2.1 (ix2 r 0) = numBlk m c (t.val / 8) (t.val % 8) r := by
  rw [outsAt0_A m c t h0 h1]
  dsimp only
  refine (congrFun (num_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 r 0)).trans ?_
  refine (pay1_apply _ _ r).trans ?_
  rw [pay4_apply, zero_add]
  exact Finset.sum_congr rfl fun q _ => tile_at m c t r q

/-- … and in the second. -/
theorem degA_at (c : Dev nD) (t : Fin cfg0.N) (h0 : t.val % 8 = 0) (h1 : ¬t.val % 8 = 7) (r : Fin 1024) :
    (outsAt0 m c t.val t.isLt).2.2 (ix2 r 0) = degBlk m c (t.val / 8) (t.val % 8) r := by
  rw [outsAt0_A m c t h0 h1]
  dsimp only
  refine (congrFun (deg_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 r 0)).trans ?_
  refine (pay2_apply _ _ r).trans ?_
  rw [pay5_apply, zero_add]
  exact degcol_at m c t r

/-- A later column block adds its contribution to what the point before left in the first accumulator. -/
theorem numS_at (c : Dev nD) (t : Fin cfg0.N) (h0 : ¬t.val % 8 = 0) (r : Fin 1024) :
    (outsAt0 m c t.val t.isLt).2.1 (ix2 r 0)
      = (outsAt0 m c (t.val - 1) (Nat.lt_of_le_of_lt (Nat.sub_le _ _) t.isLt)).2.1 (ix2 r 0) + numBlk m c (t.val / 8) (t.val % 8) r := by
  by_cases h1 : t.val % 8 = 7
  · rw [outsAt0_C m c t h0 h1]
    dsimp only
    refine (congrFun (num_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)).trans ?_
    refine (pay1_apply _ _ r).trans ?_
    exact congrArg _ (Finset.sum_congr rfl fun q _ => tile_at m c t r q)
  · rw [outsAt0_B m c t h0 h1]
    dsimp only
    refine (congrFun (num_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)).trans ?_
    refine (pay1_apply _ _ r).trans ?_
    exact congrArg _ (Finset.sum_congr rfl fun q _ => tile_at m c t r q)

/-- … and in the second. -/
theorem degS_at (c : Dev nD) (t : Fin cfg0.N) (h0 : ¬t.val % 8 = 0) (r : Fin 1024) :
    (outsAt0 m c t.val t.isLt).2.2 (ix2 r 0)
      = (outsAt0 m c (t.val - 1) (Nat.lt_of_le_of_lt (Nat.sub_le _ _) t.isLt)).2.2 (ix2 r 0) + degBlk m c (t.val / 8) (t.val % 8) r := by
  by_cases h1 : t.val % 8 = 7
  · rw [outsAt0_C m c t h0 h1]
    dsimp only
    refine (congrFun (deg_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)).trans ?_
    refine (pay2_apply _ _ r).trans ?_
    exact congrArg _ (degcol_at m c t r)
  · rw [outsAt0_B m c t h0 h1]
    dsimp only
    refine (congrFun (deg_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)).trans ?_
    refine (pay2_apply _ _ r).trans ?_
    exact congrArg _ (degcol_at m c t r)

/-- At a last column block the stored value is the first accumulator over the second floored at one. -/
theorem outC_at (c : Dev nD) (t : Fin cfg0.N) (h0 : ¬t.val % 8 = 0) (h1 : t.val % 8 = 7) (r : Fin 1024) :
    (outsAt0 m c t.val t.isLt).1 (ix2 r 0)
      = Ideal.div ((outsAt0 m c t.val t.isLt).2.1 (ix2 r 0)) (max ((outsAt0 m c t.val t.isLt).2.2 (ix2 r 0)) 1) := by
  rw [outsAt0_C m c t h0 h1]
  dsimp only
  rw [show out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 = _ from out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    show sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 = _ from num_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    show sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 = _ from deg_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]
  exact pay3_apply _ _ r

/-- After point `n` the accumulators hold the contributions of column blocks `0 … n % 8` of row block `n / 8`. -/
theorem acc_inv (c : Dev nD) : ∀ (n : Nat) (h : n < cfg0.N) (r : Fin 1024),
    (outsAt0 m c n h).2.1 (ix2 r 0) = ∑ Jb ∈ Finset.range (n % 8 + 1), numBlk m c (n / 8) Jb r
    ∧ (outsAt0 m c n h).2.2 (ix2 r 0) = ∑ Jb ∈ Finset.range (n % 8 + 1), degBlk m c (n / 8) Jb r := by
  intro n
  induction n with
  | zero =>
    intro h r
    have hn := numA_at m c ⟨0, h⟩ rfl (by dsimp only; omega) r
    have hd := degA_at m c ⟨0, h⟩ rfl (by dsimp only; omega) r
    refine ⟨hn.trans ?_, hd.trans ?_⟩ <;> simp
  | succ n ih =>
    intro h r
    have hlt : n < cfg0.N := Nat.lt_of_succ_lt h
    obtain ⟨ihn, ihd⟩ := ih hlt r
    by_cases h0 : (n + 1) % 8 = 0
    · have hn := numA_at m c ⟨n + 1, h⟩ h0 (by dsimp only; omega) r
      have hd := degA_at m c ⟨n + 1, h⟩ h0 (by dsimp only; omega) r
      dsimp only at hn hd
      rw [h0] at hn hd ⊢
      refine ⟨hn.trans ?_, hd.trans ?_⟩ <;> simp
    · have hn := numS_at m c ⟨n + 1, h⟩ h0 r
      have hd := degS_at m c ⟨n + 1, h⟩ h0 r
      dsimp only at hn hd
      have e1 : (n + 1) / 8 = n / 8 := by omega
      have e2 : (n + 1) % 8 = n % 8 + 1 := by omega
      have hn' : (outsAt0 m c (n + 1) h).2.1 (ix2 r 0) = (outsAt0 m c n hlt).2.1 (ix2 r 0) + numBlk m c ((n + 1) / 8) ((n + 1) % 8) r := hn
      have hd' : (outsAt0 m c (n + 1) h).2.2 (ix2 r 0) = (outsAt0 m c n hlt).2.2 (ix2 r 0) + degBlk m c ((n + 1) / 8) ((n + 1) % 8) r := hd
      rw [hn', hd', ihn, ihd, e1, e2, Finset.sum_range_succ (fun Jb => numBlk m c (n / 8) Jb r) (n % 8 + 1),
        Finset.sum_range_succ (fun Jb => degBlk m c (n / 8) Jb r) (n % 8 + 1)]
      exact ⟨rfl, rfl⟩

/-- Eight column blocks make the whole row. -/
theorem sum_blocks_row (f : Fin 8192 → EReal) :
    ∑ Jb ∈ Finset.range 8, ∑ q : Fin 1024, f (blkIx Jb q) = ∑ j : Fin 8192, f j := by
  have h := sum_range_blocks (fun n : Nat => f ⟨n % 8192, Nat.mod_lt _ (by decide)⟩)
  refine (h.trans ?_)
  exact Finset.sum_congr rfl fun j _ => congrArg f (Fin.ext (Nat.mod_eq_of_lt j.isLt))

/-- At a last column block the stored value at row `r` is the specification's row value of row `1024·(t/8) + r`. -/
theorem row_at (c : Dev nD) (t : Fin cfg0.N) (h1 : t.val % 8 = 7) (r : Fin 1024) :
    (outsAt0 m c t.val t.isLt).1 (ix2 r 0) = rowVal (emb m c) (adj m c) (blkIx (t.val / 8) r) := by
  obtain ⟨hn, hd⟩ := acc_inv m c t.val t.isLt r
  rw [outC_at m c t (by omega) h1 r, hn, hd, h1]
  unfold rowVal num deg numBlk degBlk
  rw [sum_blocks_row (fun j => masked (emb m c) (adj m c) (blkIx (t.val / 8) r) j),
    sum_blocks_row (fun j => adjf (adj m c) (blkIx (t.val / 8) r) j)]

end Cert.KernelIdeal.KVal

end
-- ==== Proof.KFinal.lean ====
/-
  The kernel program's result.

  The output window's blocks are the eight row blocks of an [8192, 1] column; block `I` is written back once, after the
  last column block, holding the specification's row values of rows `1024·I …`. The eight write-backs cover the column,
  so the region leaves the column of all row values. The host lines after the region sum the column, negate the sum and
  add 0.01 times the compactness term of the embeddings, which is the specification's loss of the kernel's neighbourhood
  term.
-/
import proofs.«427371_j75651553951784_3_alg».proof.Proof.KInv
import Idealize.ShloMosaic.Lib.StableHlo.Run
import Idealize.ShloMosaic.Lib.IdealHost

set_option maxRecDepth 16384

noncomputable section

namespace Cert.KernelIdeal.KVal

open Cert.KernelIdeal Cert.KernelIdeal.Gen Cert.GraphLoss Idealize.ShloMosaic Idealize.ShloMosaic.TcCoe
open Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The column of row values. -/
def rowArr (c : Dev nD) : Vec Ideal S8192x1 .f32 := fun y => rowVal (emb m c) (adj m c) (y 0)

/-- The output window's block index at point `t`: row block `t / 8`, the one column. -/
theorem idx5 : ∀ t : Fin cfg0.N, win0_5.index t (0 : Fin 2) = t.val / 8 ∧ win0_5.index t (1 : Fin 2) = 0 :=
  (by decide +kernel : ∀ t : Fin grid0.N, _)

/-- What a window hands to a write-back, read at an index of the part it moves: the block's contents there. -/
theorem cut_apply' {α : Type} (w : Pipeline.Window sig grid0) (i : grid0.Coords) (X : w.block.Idx → α)
    (y : (w.xblock i).Idx) : w.cut i X y = X (w.xinj i y) := rfl

/-- What a write-back writes is its block of the column of row values. -/
theorem flushed_eq (c : Dev nD) (t : Fin cfg0.N) (hf : (cfg0.win 5).flush t = true) :
    (dats m 0 c).flushed 5 t = ((cfg0.win 5).blk t).view.read (Elt Ideal) (rowArr m c) := by
  have h7 : t.val % 8 = 7 := (flush0_5 t).mp hf
  have hN : cfg0.N = 64 := N_0
  have hlt : t.val < 64 := hN ▸ t.isLt
  show (cfg0.win 5).cut (grid0.coords t) ((dats m 0 c).after 5 t) = _
  rw [after0_5]
  funext y
  rw [View.read_apply, cut_apply']
  simp only [cast_eq]
  have hz0 : (((cfg0.win 5).xinj (grid0.coords t) y) 0).val = (y 0).val := rfl
  generalize (cfg0.win 5).xinj (grid0.coords t) y = z at hz0 ⊢
  obtain ⟨r, u, rfl⟩ : ∃ (r : Fin 1024) (u : Fin 1), z = ix2 r u := ⟨z 0, z 1, eq_ix2 z⟩
  obtain rfl : u = 0 := Subsingleton.elim _ _
  refine (row_at m c t h7 r).trans ?_
  unfold rowArr
  refine congrArg (rowVal (emb m c) (adj m c)) (Fin.ext ?_)
  show (blkIx (t.val / 8) r).val = win0_5.index t (0 : Fin 2) * 1024 + 1 * (y 0).val
  have hr : r.val = (y 0).val := hz0
  rw [blkIx_val _ _ (by omega), (idx5 t).1]
  omega

/-- An index of the column lies in point `t`'s block iff each coordinate lies in the block's range. -/
theorem mem_blk5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v6).slice (win0_5.rect t)).set ↔ _
  rw [View.set_slice_whole, Rect.mem_set_unit]
  exact Iff.rfl

/-- Every index of the column is in the block some write-back writes: row `i` in row block `i / 1024`'s. -/
theorem cover5 (i : S8192x1.Idx) :
    ∃ t : Fin cfg0.N, (cfg0.win 5).flush t = true ∧ i ∈ ((cfg0.win 5).blk t).view.set := by
  have hN : cfg0.N = 64 := N_0
  have hi0 : (i 0).val < 8192 := (i 0).isLt
  have hi1 : (i 1).val < 1 := (i 1).isLt
  have ht' : 8 * ((i 0).val / 1024) + 7 < cfg0.N := by rw [hN]; omega
  refine ⟨⟨8 * ((i 0).val / 1024) + 7, ht'⟩, (flush0_5 _).mpr (by dsimp only; omega), ?_⟩
  rw [mem_blk5]
  obtain ⟨e0, e1⟩ := idx5 ⟨8 * ((i 0).val / 1024) + 7, ht'⟩
  dsimp only at e0
  intro a
  match a with
  | ⟨0, _⟩ =>
    show win0_5.index ⟨8 * ((i 0).val / 1024) + 7, ht'⟩ (0 : Fin 2) * 1024 ≤ (i 0).val
      ∧ (i 0).val < win0_5.index ⟨8 * ((i 0).val / 1024) + 7, ht'⟩ (0 : Fin 2) * 1024 + 1024
    rw [e0]; omega
  | ⟨1, _⟩ =>
    show win0_5.index ⟨8 * ((i 0).val / 1024) + 7, ht'⟩ (1 : Fin 2) * 1 ≤ (i 1).val
      ∧ (i 1).val < win0_5.index ⟨8 * ((i 0).val / 1024) + 7, ht'⟩ (1 : Fin 2) * 1 + 1
    rw [e1]; omega

/-- The region leaves the column of row values in the output array. -/
theorem final5 (c : Dev nD) : (dats m 0 c).arrAt 5 cfg0.N = rowArr m c :=
  (dats m 0 c).arrAt_eq_of_cover 5 (rowArr m c) (flushed_eq m c) cover5

/-- An [a, 1] column read as a vector of length a. -/
theorem shapeCast_a1_a_apply {α : Type} {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A sum over the indices of a vector of length 8192 is the sum over its one coordinate. -/
theorem sum_idx1 (f : S8192.Idx → EReal) : ∑ i : S8192.Idx, f i = ∑ k : Fin 8192, f (ix1 k) :=
  Fintype.sum_equiv ⟨fun i => i 0, fun k => ix1 k, fun i => (eq_ix1 i).symm, fun _ => rfl⟩ _ _
    (fun i => congrArg f (eq_ix1 i))

/-- The kernel program's compactness scalar: the sum over the rows of the norm of the row minus the mean row. -/
def tailK (e : FVec Ideal S8192x512 .f32) : EReal :=
  (Host.reduceAdd (Host.sqrt (Host.reduceAdd (mulf (subf e (broadcastInDim S8192x512 ![0, 1] bcast_S1x512_S8192x512_0_1 (broadcastInDim S1x512 ![1] bcast_S512_S1x512_1 (Host.divf (Host.reduceAdd e (constant S_ .f32 0x00000000#32) reducesTo_S8192x512_S512_d0 h_S_) (broadcastInDim S512 ![] bcast_S_S512 (constant S_ .f32 0x46000000#32)))))) (subf e (broadcastInDim S8192x512 ![0, 1] bcast_S1x512_S8192x512_0_1 (broadcastInDim S1x512 ![1] bcast_S512_S1x512_1 (Host.divf (Host.reduceAdd e (constant S_ .f32 0x00000000#32) reducesTo_S8192x512_S512_d0 h_S_) (broadcastInDim S512 ![] bcast_S_S512 (constant S_ .f32 0x46000000#32))))))) (constant S_ .f32 0x00000000#32) reducesTo_S8192x512_S8192_d1 h_S_)) (constant S_ .f32 0x00000000#32) reducesTo_S8192_S_d0 h_S_) ix0

/-- The sum of the column of row values is the kernel's neighbourhood term. -/
theorem colsum_eq (c : Dev nD) :
    Host.reduceAdd (F := Ideal) (fun i => shapeCast S8192 (rowArr m c) shapeCasts_S8192x1_S8192 i)
      (constant S_ .f32 0x00000000#32) reducesTo_S8192_S_d0 h_S_ ix0 = nbrK (emb m c) (adj m c) := by
  rw [hostReduceAdd_apply, Ideal.hostReduceAdd_total reducesTo_S8192_S_d0 (fun b => b.elim0), constant_apply,
    Ideal.ofBits_zero_f32, zero_add, sum_idx1]
  unfold nbrK
  refine Finset.sum_congr rfl fun k _ => ?_
  exact shapeCast_a1_a_apply (rowArr m c) shapeCasts_S8192x1_S8192 k

set_option maxHeartbeats 2000000 in
/-- The host lines after the region leave the loss of the kernel's neighbourhood term in the result. -/
theorem tail_eq (c : Dev nD) :
    (Pipeline.afterTail₀ cfgs (dats m) 0 (V0 m) [hostOps1, hostOps1_1, hostOps1_2] c main_v19 : Vec Ideal S_ .f32)
      = lossOf (nbrK (emb m c) (adj m c)) (tailK (emb m c)) := by
  unfold Pipeline.afterTail₀
  have h6 := Pipeline.withArrays_arr spec0 launch0.win.arr_inj c (V0 m c) (fun w => (dats m 0 c).arrAt w cfg0.N) 5
  have h0 := Pipeline.withArrays_of_ne spec0 c (V0 m c) (fun w => (dats m 0 c).arrAt w cfg0.N) main_arg0 (by decide)
  show StableHlo.after _ (Pipeline.withArrays spec0 c (V0 m c) fun w => (dats m 0 c).arrAt w cfg0.N) (Proc.devRef .tc main_v19) = _
  generalize Pipeline.withArrays spec0 c (V0 m c) (fun w => (dats m 0 c).arrAt w cfg0.N) = W at h6 h0 ⊢
  have h6' : W (Proc.devRef .tc main_v6) = rowArr m c := h6.trans (final5 m c)
  have h0' : W (Proc.devRef .tc main_arg0) = emb m c := h0.trans (V_main_arg0 m c)
  simp only [hostOps1, hostOps1_1, hostOps1_2, List.flatten_cons, List.flatten_nil, List.append_nil, List.cons_append, List.nil_append]
  after_results_simp
  rw [h6', h0']
  funext x
  obtain rfl : x = ix0 := eq_ix0 x
  show -(Host.reduceAdd (F := Ideal) (fun i => shapeCast S8192 (rowArr m c) shapeCasts_S8192x1_S8192 i)
      (constant S_ .f32 0x00000000#32) reducesTo_S8192_S_d0 h_S_ ix0) + Ideal.ofBits .f32 0x3C23D70A#32 * tailK (emb m c) = _
  rw [colsum_eq]
  rfl

/-- The kernel program's run, read: the result at the loss of the kernel's neighbourhood term, the arguments kept. -/
theorem run : θ_run (defs (F := Ideal)) (onTc (τ := τ) (main (F := Ideal))) ⟨m, fun _ => 0, ρ⟩ fun r => ∀ c : Dev nD,
      r.2.mem ((c.tc : Thread nD τ).loc main_v19) = lossOf (nbrK (emb m c) (adj m c)) (tailK (emb m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c)))⟩)
    (run_main m ρ)

end Cert.KernelIdeal.KVal

end
-- ==== Proof.lean ====
/-
  The kernel and the reference compute one loss of a graph embedding: minus the adjacency-weighted mean of pairwise
  distances, row by row, plus 0.01 times the sum of the rows' distances from the mean row.

  Pairwise distances come from the Gram identity, `√(max (‖eᵢ‖² + ‖eⱼ‖² − 2⟨eᵢ, eⱼ⟩) ε)`; the reference clips the
  squared distance at zero first, which changes nothing since `0 ≤ ε`. The kernel tiles the 8192 × 8192 plane into
  1024 × 1024 blocks, keeps for each row the running sum of the distances at non-zero adjacency entries and the running
  degree across a row block's eight column blocks, and stores their quotient, the degree floored at one; the host sums
  the rows. The reference weights every distance by its adjacency entry, divides by the row's degree and sums
  everything. Under the precondition the adjacency matrix has entries 0 and 1 only and every row has degree at least
  one: the mask is then the product with the entry, the floor does nothing, and dividing a sum of non-negative terms by
  a positive real is dividing each term. Sums over the extended reals may be regrouped freely, so the blocked
  accumulation is the row sum. The compactness term is the same expression of the embeddings on both sides.

  The frames of the two kernel programs are the generated frame certificates; the reference's frame is its run with
  the result forgotten. The ideal pass rewrote nothing, so there is nothing to preserve.
-/
import proofs.«427371_j75651553951784_3_alg».proof.Defs
import proofs.«427371_j75651553951784_3_alg».proof.Proof.Gen.Kernel
import proofs.«427371_j75651553951784_3_alg».proof.Proof.Gen.Kernel.Skeleton
import proofs.«427371_j75651553951784_3_alg».proof.Proof.Gen.Kernel.Launch
import proofs.«427371_j75651553951784_3_alg».proof.Proof.Gen.Kernel.Points
import proofs.«427371_j75651553951784_3_alg».proof.Proof.Gen.Kernel.Frame
import proofs.«427371_j75651553951784_3_alg».proof.Proof.Gen.KernelIdeal
import proofs.«427371_j75651553951784_3_alg».proof.Proof.Gen.KernelIdeal.Skeleton
import proofs.«427371_j75651553951784_3_alg».proof.Proof.Gen.KernelIdeal.Launch
import proofs.«427371_j75651553951784_3_alg».proof.Proof.Gen.KernelIdeal.Points
import proofs.«427371_j75651553951784_3_alg».proof.Proof.Gen.KernelIdeal.Frame
import proofs.«427371_j75651553951784_3_alg».proof.Proof.Gen.ReferenceIdeal
import proofs.«427371_j75651553951784_3_alg».proof.Proof.Gen.ReferenceIdeal.Run
import proofs.«427371_j75651553951784_3_alg».proof.Proof.Gen.Pre_finite_inputs
import proofs.«427371_j75651553951784_3_alg».proof.Proof.Algebra
import proofs.«427371_j75651553951784_3_alg».proof.Proof.PreFacts
import proofs.«427371_j75651553951784_3_alg».proof.Proof.RefValue
import proofs.«427371_j75651553951784_3_alg».proof.Proof.KFinal
import Idealize.ShloMosaic.Adequacy
import Idealize.ShloMosaic.Init

noncomputable section

namespace Cert.Proof

open Idealize.ShloMosaic Idealize.SL.Sem Cert.GraphLoss

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The compactness scalar is one expression of the embeddings in both programs. -/
theorem tail_same (e : SE.Idx → EReal) : Cert.ReferenceIdeal.RefValue.tailR e = Cert.KernelIdeal.KVal.tailK e := rfl

/-- Both programs end at the loss of the kernel's neighbourhood term: the reference's neighbourhood term is the
    kernel's for a 0/1 adjacency matrix with no empty row, which the precondition says the argument is. -/
theorem algebraic : Cert.algebraic_KernelIdeal_ReferenceIdeal := by
  intro m ρ m' ρ' hpre hagree
  refine ⟨fun c => lossOf (nbrK (Cert.KernelIdeal.KVal.emb m c) (Cert.KernelIdeal.KVal.adj m c))
    (Cert.KernelIdeal.KVal.tailK (Cert.KernelIdeal.KVal.emb m c)), Cert.KernelIdeal.KVal.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  have h01 := adj01_of_pre _ _ (hpre c)
  have hdg := deg_ge_one_of_pre _ _ (hpre c)
  show lossOf (nbrR (Cert.KernelIdeal.KVal.emb m c) (Cert.KernelIdeal.KVal.adj m c))
      (Cert.ReferenceIdeal.RefValue.tailR (Cert.KernelIdeal.KVal.emb m c)) = _
  rw [← nbr_eq _ _ h01 hdg, tail_same]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
